-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "a_exact_inv_512" .f32 0x3B000000#32 ((1 / 512 : ℝ) : EReal)
  ∧ IdealRules.named_const.Statement Cert.KernelIdeal.κ "a_exact_inv_512" .f32 0x3B000000#32 ((1 / 512 : ℝ) : EReal)
  ∧ IdealRules.named_const.Statement Cert.KernelIdeal.κ "a_exact_inv_512" .f32 0x3B000000#32 ((1 / 512 : ℝ) : EReal)
  ∧ IdealRules.named_const.Statement Cert.KernelIdeal.κ "inv_511" .f32 0x3B004020#32 ((1 / 511 : ℝ) : EReal)
  ∧ IdealRules.named_const.Statement Cert.KernelIdeal.κ "a_exact_inv_512" .f32 0x3B000000#32 ((1 / 512 : ℝ) : EReal)
  ∧ IdealRules.named_const.Statement Cert.KernelIdeal.κ "inv_511" .f32 0x3B004020#32 ((1 / 511 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel

variable [Facts]

def fn {F : FTy → Type} [FloatOps F] (main_arg0 : FVec F S32x4096x512 .f32) (main_arg1 : FVec F S32x4096x512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S32x4096x512 .f32 := Host.absf main_arg1
  let main_cst_0 : FVec F S_ .f32 := constant S_ .f32 0x7F800000#32
  let main_v5 : FVec F S32x4096x512 .f32 := broadcastInDim S32x4096x512 ![] bcast_S_S32x4096x512 main_cst_0
  let main_v6 : IVec S32x4096x512 1 := cmpf .olt main_v4 main_v5
  let main_c_1 : IVec S_ 1 := constantI S_ 1 1#1
  let main_v7 : IVec S_ 1 := (fun x v => Host.reduce IntOp.andi x v reducesTo_S32x4096x512_S_d0_1_2 h_S_) main_v6 main_c_1
  let main_v8 : IVec S_ 1 := andi main_v3 main_v7
  main_v8
-- ==== Kernel.lean ====
abbrev S32x4096x512 : Shape := ⟨3, ![32, 4096, 512]⟩
abbrev S32x1x128 : Shape := ⟨3, ![32, 1, 128]⟩
abbrev S1x2048x512 : Shape := ⟨3, ![1, 2048, 512]⟩
abbrev S1x1x128 : Shape := ⟨3, ![1, 1, 128]⟩
abbrev S1x1 : Shape := ⟨2, ![1, 1]⟩
abbrev S2048x512 : Shape := ⟨2, ![2048, 512]⟩
abbrev S2048 : Shape := ⟨1, ![2048]⟩
abbrev S2048x1 : Shape := ⟨2, ![2048, 1]⟩
abbrev S1 : Shape := ⟨1, ![1]⟩
abbrev S1x128 : Shape := ⟨2, ![1, 128]⟩
abbrev S32x1x1 : Shape := ⟨3, ![32, 1, 1]⟩
abbrev S32 : Shape := ⟨1, ![32]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S32x4096x512, .f32⟩
  | .hbm, ⟨1, _⟩ => ⟨S32x4096x512, .f32⟩
  | .hbm, ⟨2, _⟩ => ⟨S32x1x128, .f32⟩
  | .hbm, ⟨3, _⟩ => ⟨S32x1x1, .f32⟩
  | .hbm, ⟨4, _⟩ => ⟨S32, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x1x128, .f32⟩
  | .local _ .vmem, ⟨5, _⟩ => ⟨S1x1x128, .f32⟩
  | .local _ .vmem, ⟨6, _⟩ => ⟨S1x1, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v70 : BitVec 1 := Scalar.cmpi .eq arg1 c1_i32
  let v71 : BitVec 32 := Scalar.extui v70
  let c0_i32_27 : BitVec 32 := 0#32
  let v72 : BitVec 1 := Scalar.cmpi .ne v71 c0_i32_27
  v72

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x4096x512.size a
  hwx0_0 : ∀ i : grid0.Coords, EltTy.bits .f32 = 32 ∨ (Rect.block (s := S32x4096x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S32x4096x512.size a
  hwx0_1 : ∀ i : grid0.Coords, EltTy.bits .f32 = 32 ∨ (Rect.block (s := S32x4096x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)

variable [Facts₀]

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x4096x512 : Shape := ⟨3, ![32, 4096, 512]⟩
abbrev S_ : Shape := ⟨0, ![]⟩
abbrev S32x4096 : Shape := ⟨2, ![32, 4096]⟩
abbrev S32x4096x1 : Shape := ⟨3, ![32, 4096, 1]⟩
abbrev S32 : Shape := ⟨1, ![32]⟩

abbrev nBuf : Space → Nat
  | .hbm => 118
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32x4096x512, .f32⟩
  | .hbm, ⟨2, _⟩ => ⟨S_, .i32⟩
  | .hbm, ⟨3, _⟩ => ⟨S_, .f32⟩
  | .hbm, ⟨4, _⟩ => ⟨S32x4096, .f32⟩
  | .hbm, ⟨5, _⟩ => ⟨S32x4096x1, .f32⟩
  | .hbm, ⟨6, _⟩ => ⟨S_, .f32⟩
  | .hbm, ⟨7, _⟩ => ⟨S32x4096x1, .f32⟩
  | .hbm, ⟨8, _⟩ => ⟨S32x4096x1, .f32⟩
  | .hbm, ⟨9, _⟩ => ⟨S32x4096x512, .f32⟩
  | .hbm, ⟨10, _⟩ => ⟨S32x4096x512, .f32⟩
  | .hbm, ⟨11, _⟩ => ⟨S32x4096x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x4096, .f32⟩
  | .hbm, ⟨17, _⟩ => ⟨S32x4096, .f32⟩
  | .hbm, ⟨18, _⟩ => ⟨S32x4096, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S32x4096, .f32⟩
  | .hbm, ⟨24, _⟩ => ⟨S32x4096, .f32⟩
  | .hbm, ⟨25, _⟩ => ⟨S_, .i32⟩
  | .hbm, ⟨26, _⟩ => ⟨S_, .f32⟩
  | .hbm, ⟨27, _⟩ => ⟨S32x4096, .f32⟩
  | .hbm, ⟨28, _⟩ => ⟨S32x4096x1, .f32⟩
  | .hbm, ⟨29, _⟩ => ⟨S_, .f32⟩
  | .hbm, ⟨30, _⟩ => ⟨S32x4096x1, .f32⟩
  | .hbm, ⟨31, _⟩ => ⟨S32x4096x1, .f32⟩
  | .hbm, ⟨32, _⟩ => ⟨S32x4096x512, .f32⟩
  | .hbm, ⟨33, _⟩ => ⟨S32x4096x512, .f32⟩
  | .hbm, ⟨34, _⟩ => ⟨S32x4096x512, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x4096, .f32⟩
  | .hbm, ⟨40, _⟩ => ⟨S32x4096, .f32⟩
  | .hbm, ⟨41, _⟩ => ⟨S32x4096, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S32x4096, .f32⟩
  | .hbm, ⟨47, _⟩ => ⟨S32x4096, .f32⟩
  | .hbm, ⟨48, _⟩ => ⟨S32x4096, .f32⟩
  | .hbm, ⟨49, _⟩ => ⟨S_, .f32⟩
  | .hbm, ⟨50, _⟩ => ⟨S32x4096, .f32⟩
  | .hbm, ⟨51, _⟩ => ⟨S32x4096, .f32⟩
  | .hbm, ⟨52, _⟩ => ⟨S_, .f32⟩
  | .hbm, ⟨53, _⟩ => ⟨S32x4096, .f32⟩
  | .hbm, ⟨54, _⟩ => ⟨S_, .f32⟩
  | .hbm, ⟨55, _⟩ => ⟨S32x4096, .f32⟩
  | .hbm, ⟨56, _⟩ => ⟨S32x4096, .f32⟩
  | .hbm, ⟨57, _⟩ => ⟨S_, .f32⟩
  | .hbm, ⟨58, _⟩ => ⟨S32x4096, .f32⟩
  | .hbm, ⟨59, _⟩ => ⟨S_, .f32⟩
  | .hbm, ⟨60, _⟩ => ⟨S32x4096, .f32⟩
  | .hbm, ⟨61, _⟩ => ⟨S32x4096, .f32⟩
  | .hbm, ⟨62, _⟩ => ⟨S32x4096, .f32⟩
  | .hbm, ⟨63, _⟩ => ⟨S_, .f32⟩
  | .hbm, ⟨64, _⟩ => ⟨S32x4096, .f32⟩
  | .hbm, ⟨65, _⟩ => ⟨S32x4096, .f32⟩
  | .hbm, ⟨66, _⟩ => ⟨S32x4096, .f32⟩
  | .hbm, ⟨67, _⟩ => ⟨S32x4096, .f32⟩
  | .hbm, ⟨68, _⟩ => ⟨S32x4096, .f32⟩
  | .hbm, ⟨69, _⟩ => ⟨S_, .f32⟩
  | .hbm, ⟨70, _⟩ => ⟨S32, .f32⟩
  | .hbm, ⟨71, _⟩ => ⟨S32x4096, .f32⟩
  | .hbm, ⟨72, _⟩ => ⟨S32x4096, .f32⟩
  | .hbm, ⟨73, _⟩ => ⟨S_, .f32⟩
  | .hbm, ⟨74, _⟩ => ⟨S32, .f32⟩
  | .hbm, ⟨75, _⟩ => ⟨S_, .f32⟩
  | .hbm, ⟨76, _⟩ => ⟨S32x4096, .f32⟩
  | .hbm, ⟨77, _⟩ => ⟨S32x4096, .f32⟩
  | .hbm, ⟨78, _⟩ => ⟨S32x4096, .f32⟩
  | .hbm, ⟨79, _⟩ => ⟨S_, .f32⟩
  | .hbm, ⟨80, _⟩ => ⟨S32, .f32⟩
  | .hbm, ⟨81, _⟩ => ⟨S32x4096, .f32⟩
  | .hbm, ⟨82, _⟩ => ⟨S_, .f32⟩
  | .hbm, ⟨83, _⟩ => ⟨S32, .f32⟩
  | .hbm, ⟨84, _⟩ => ⟨S32x4096, .f32⟩
  | .hbm, ⟨85, _⟩ => ⟨S32x4096, .f32⟩
  | .hbm, ⟨86, _⟩ => ⟨S32x4096, .f32⟩
  | .hbm, ⟨87, _⟩ => ⟨S32x4096, .f32⟩
  | .hbm, ⟨88, _⟩ => ⟨S_, .f32⟩
  | .hbm, ⟨89, _⟩ => ⟨S32, .f32⟩
  | .hbm, ⟨90, _⟩ => ⟨S32x4096, .f32⟩
  | .hbm, ⟨91, _⟩ => ⟨S32x4096, .f32⟩
  | .hbm, ⟨92, _⟩ => ⟨S_, .f32⟩
  | .hbm, ⟨93, _⟩ => ⟨S32, .f32⟩
  | .hbm, ⟨94, _⟩ => ⟨S_, .f32⟩
  | .hbm, ⟨95, _⟩ => ⟨S32, .f32⟩
  | .hbm, ⟨96, _⟩ => ⟨S32, .f32⟩
  | .hbm, ⟨97, _⟩ => ⟨S32, .f32⟩
  | .hbm, ⟨98, _⟩ => ⟨S32, .f32⟩
  | .hbm, ⟨99, _⟩ => ⟨S_, .f32⟩
  | .hbm, ⟨100, _⟩ => ⟨S32, .f32⟩
  | .hbm, ⟨101, _⟩ => ⟨S32, .f32⟩
  | .hbm, ⟨102, _⟩ => ⟨S_, .f32⟩
  | .hbm, ⟨103, _⟩ => ⟨S32, .f32⟩
  | .hbm, ⟨104, _⟩ => ⟨S32, .f32⟩
  | .hbm, ⟨105, _⟩ => ⟨S32, .f32⟩
  | .hbm, ⟨106, _⟩ => ⟨S32, .f32⟩
  | .hbm, ⟨107, _⟩ => ⟨S_, .f32⟩
  | .hbm, ⟨108, _⟩ => ⟨S32, .f32⟩
  | .hbm, ⟨109, _⟩ => ⟨S32, .f32⟩
  | .hbm, ⟨110, _⟩ => ⟨S32, .f32⟩
  | .hbm, ⟨111, _⟩ => ⟨S_, .f32⟩
  | .hbm, ⟨112, _⟩ => ⟨S32, .f32⟩
  | .hbm, ⟨113, _⟩ => ⟨S32, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_cst_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_cst_3 : Ref sig .tc := ⟨.hbm, 19, rfl⟩
abbrev main_call0_v12 : Ref sig .tc := ⟨.hbm, 20, rfl⟩
abbrev main_call0_cst_4 : Ref sig .tc := ⟨.hbm, 21, rfl⟩
abbrev main_call0_call0_v0 : Ref sig .tc := ⟨.hbm, 22, rfl⟩
abbrev main_call0_call0_v1 : Ref sig .tc := ⟨.hbm, 23, rfl⟩
abbrev main_v0 : Ref sig .tc := ⟨.hbm, 24, rfl⟩
abbrev main_c_0 : Ref sig .tc := ⟨.hbm, 25, rfl⟩
abbrev main_call1_cst : Ref sig .tc := ⟨.hbm, 26, rfl⟩
abbrev main_call1_v0 : Ref sig .tc := ⟨.hbm, 27, rfl⟩
abbrev main_call1_v1 : Ref sig .tc := ⟨.hbm, 28, rfl⟩
abbrev main_call1_cst_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_cst_1 : Ref sig .tc := ⟨.hbm, 36, rfl⟩
abbrev main_call1_v8 : Ref sig .tc := ⟨.hbm, 37, rfl⟩
abbrev main_call1_cst_2 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_cst_3 : Ref sig .tc := ⟨.hbm, 42, rfl⟩
abbrev main_call1_v12 : Ref sig .tc := ⟨.hbm, 43, rfl⟩
abbrev main_call1_cst_4 : Ref sig .tc := ⟨.hbm, 44, rfl⟩
abbrev main_call1_call0_v0 : Ref sig .tc := ⟨.hbm, 45, rfl⟩
abbrev main_call1_call0_v1 : Ref sig .tc := ⟨.hbm, 46, rfl⟩
abbrev main_v1 : Ref sig .tc := ⟨.hbm, 47, rfl⟩
abbrev main_v2 : Ref sig .tc := ⟨.hbm, 48, rfl⟩
abbrev main_cst : Ref sig .tc := ⟨.hbm, 49, rfl⟩
abbrev main_v3 : Ref sig .tc := ⟨.hbm, 50, rfl⟩
abbrev main_v4 : Ref sig .tc := ⟨.hbm, 51, rfl⟩
abbrev main_cst_1 : Ref sig .tc := ⟨.hbm, 52, rfl⟩
abbrev main_v5 : Ref sig .tc := ⟨.hbm, 53, rfl⟩
abbrev main_cst_2 : Ref sig .tc := ⟨.hbm, 54, rfl⟩
abbrev main_v6 : Ref sig .tc := ⟨.hbm, 55, rfl⟩
abbrev main_v7 : Ref sig .tc := ⟨.hbm, 56, rfl⟩
abbrev main_cst_3 : Ref sig .tc := ⟨.hbm, 57, rfl⟩
abbrev main_v8 : Ref sig .tc := ⟨.hbm, 58, rfl⟩
abbrev main_cst_4 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst_5 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_cst_6 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_cst_7 : Ref sig .tc := ⟨.hbm, 73, rfl⟩
abbrev main_v20 : Ref sig .tc := ⟨.hbm, 74, rfl⟩
abbrev main_cst_8 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_cst_9 : Ref sig .tc := ⟨.hbm, 79, rfl⟩
abbrev main_v24 : Ref sig .tc := ⟨.hbm, 80, rfl⟩
abbrev main_v25 : Ref sig .tc := ⟨.hbm, 81, rfl⟩
abbrev main_cst_10 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_11 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_cst_12 : Ref sig .tc := ⟨.hbm, 92, rfl⟩
abbrev main_v34 : Ref sig .tc := ⟨.hbm, 93, rfl⟩
abbrev main_cst_13 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_cst_14 : Ref sig .tc := ⟨.hbm, 99, rfl⟩
abbrev main_v39 : Ref sig .tc := ⟨.hbm, 100, rfl⟩
abbrev main_v40 : Ref sig .tc := ⟨.hbm, 101, rfl⟩
abbrev main_cst_15 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_cst_16 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_cst_17 : Ref sig .tc := ⟨.hbm, 111, rfl⟩
abbrev main_v48 : Ref sig .tc := ⟨.hbm, 112, rfl⟩
abbrev main_v49 : Ref sig .tc := ⟨.hbm, 113, rfl⟩
abbrev main_cst_18 : Ref sig .tc := ⟨.hbm, 114, rfl⟩
abbrev main_v50 : Ref sig .tc := ⟨.hbm, 115, rfl⟩
abbrev main_cst_19 : Ref sig .tc := ⟨.hbm, 116, rfl⟩
abbrev main_v51 : Ref sig .tc := ⟨.hbm, 117, rfl⟩

abbrev nD : Nat := 1
abbrev τ : Topo := Topo.v7x

variable {F : FTy → Type} [FloatOps F]

class Facts₀ : Prop where
  reducesTo_S32x4096x512_S32x4096_d2 : S32x4096x512.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x512_0_1_2 : S32x4096x1.BroadcastsInDim S32x4096x512 (![0, 1, 2] : Fin 3 → Fin S32x4096x512.rank)
  bcast_S_S32x4096 : S_.BroadcastsInDim S32x4096 (![] : Fin 0 → Fin S32x4096.rank)
  reducesTo_S32x4096_S32_d1 : S32x4096.ReducesTo [1] S32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.KPieces.lean ====
/-
  What one run of the kernel body leaves behind, as values of the blocks it loads — at any float instance.

  The body keeps a 1×1 accumulator in scratch. At a batch's first tile it stores 0.0 there first; at every tile it then
  loads the accumulator, adds the tile's 2048 row terms summed into one number, and stores the sum back; at a batch's
  second (last) tile it loads the accumulator once more and stores it, broadcast over 128 lanes, into the output block.

  So with `accum x₀ x₁ s` the accumulate store's value from the two input blocks over accumulator contents `s`:
  the first tile leaves `accum x₀ x₁ zero` in scratch (the load sees the reset store before it), the second tile
  leaves `accum x₀ x₁ s` over what the first left, and the output block is that number on every lane.
-/
import proofs.«424572_j75840532512889_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F] [Named F]

theorem offs2 : (![0, 0] : Fin 2 → Nat) = fun _ => 0 := funext fun a => by fin_cases a <;> rfl
theorem offs3 : (![0, 0, 0] : Fin 3 → Nat) = fun _ => 0 := funext fun a => by fin_cases a <;> rfl

/-- The accumulate store's value: the accumulator contents `s` plus the sum over the tile's 2048 rows of the row term,
    the row statistics taken from the two input blocks. -/
abbrev accum (x0 x1 : Vec F S1x2048x512 .f32) (s : Vec F S1x1 .f32) : Vec F S1x1 .f32 :=
  k0_pay1 (k0_pay8 x0) (k0_pay9 x1) (k0_pay10 x0) (k0_pay11 x0 x1) (k0_pay12 x0 x1) (Scalar.ofBits .f32 0x3F000000#32) s

/-- The reset store's value: 0.0. -/
abbrev zeroAcc : Vec F S1x1 .f32 := k0_pay3 (F := F)

/-- A batch's FIRST tile leaves in scratch the tile's sum over the reset value: the accumulate store covers the reset
    store, and its load of the accumulator reads what the reset store wrote. -/
theorem scratch_first (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x1x128 .f32) (harg4 : arg4.IsWhole) (arg5 : Memref sig .tc .vmem S1x1 .f32) (harg5 : arg5.IsWhole) (hc0 : cond0_0 i) (hc1 : ¬cond0_1 i)
    (x0 : Vec F S1x2048x512 .f32) (x1 : Vec F S1x2048x512 .f32) :
    sout0_A_0 c i arg2 harg2 arg3 harg3 arg4 harg4 arg5 harg5 hc0 hc1 x0 x1 = accum x0 x1 zeroAcc := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) offs2]
  simp only [View.readAt_eq_ld, harg2.read_unread, harg3.read_unread, harg5.read_unread, View.ld_unit_zero (S := S1x2048x512) offs3, View.ld_unit_zero (S := S1x1) offs2, View.readCov_unit_zero (S := S1x1) _ offs2]

/-- A batch's SECOND tile leaves in scratch the tile's sum over what the scratch held (`s`). -/
theorem scratch_second (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x1x128 .f32) (harg4 : arg4.IsWhole) (arg5 : Memref sig .tc .vmem S1x1 .f32) (harg5 : arg5.IsWhole) (hc0 : ¬cond0_0 i) (hc1 : cond0_1 i)
    (x0 : Vec F S1x2048x512 .f32) (x1 : Vec F S1x2048x512 .f32) (s : Vec F S1x1 .f32) :
    sout0_B_0 c i arg2 harg2 arg3 harg3 arg4 harg4 arg5 harg5 hc0 hc1 x0 x1 s = accum x0 x1 s := by
  unfold sout0_B_0
  rw [View.read_writes_eq_canon _ _ _ (scover0_B_0 c i arg2 harg2 arg3 harg3 arg4 harg4 arg5 harg5 hc0 hc1 x0 x1 s)]
  unfold kernelRun0_B
  dsimp only
  sl_unfold_words
  rw [View.canon_unit_zero offs2]
  simp only [View.readAt_eq_ld, harg2.read_unread, harg3.read_unread, harg5.read_unread, View.ld_unit_zero (S := S1x2048x512) offs3, View.ld_unit_zero (S := S1x1) offs2]

/-- … and in the output block that same number on every lane: the store into the output reads the accumulator back
    after the accumulate store. -/
theorem out_second (c : Dev nD) (i : grid0.Coords) (arg2 : Memref sig .tc .vmem S1x2048x512 .f32) (harg2 : arg2.IsWhole) (arg3 : Memref sig .tc .vmem S1x2048x512 .f32) (harg3 : arg3.IsWhole) (arg4 : Memref sig .tc .vmem S1x1x128 .f32) (harg4 : arg4.IsWhole) (arg5 : Memref sig .tc .vmem S1x1 .f32) (harg5 : arg5.IsWhole) (hc0 : ¬cond0_0 i) (hc1 : cond0_1 i)
    (x0 : Vec F S1x2048x512 .f32) (x1 : Vec F S1x2048x512 .f32) (s : Vec F S1x1 .f32) :
    out0_B_2 c i arg2 harg2 arg3 harg3 arg4 harg4 arg5 harg5 hc0 hc1 x0 x1 s = k0_pay2 (accum x0 x1 s) := by
  unfold out0_B_2
  rw [View.read_writes_eq_canon _ _ _ (cover0_B_2 c i arg2 harg2 arg3 harg3 arg4 harg4 arg5 harg5 hc0 hc1 x0 x1 s)]
  unfold kernelRun0_B
  dsimp only
  sl_unfold_words
  rw [View.canon_unit_zero offs3]
  simp only [View.readAt_eq_ld, harg2.read_unread, harg3.read_unread, harg5.read_unread, View.ld_unit_zero (S := S1x2048x512) offs3, View.ld_unit_zero (S := S1x1) offs2, View.readCov_unit_zero (S := S1x1) _ offs2]

end Cert.KernelIdeal.KValue

end
-- ==== Proof.KPoints.lean ====
/-
  What the output's staging buffer holds after a batch's second tile, at any float instance.

  The grid runs 64 points: point t is tile t mod 2 of batch t / 2. The accumulator is reset at every even point, so an
  odd point's contents need only the point before it: after point t − 1 (a first tile) the scratch holds that tile's
  sum over the reset value, after point t (a second tile) it holds this tile's sum over that, and the output block is
  that number on every lane.
-/
import proofs.«424572_j75840532512889_3_alg».proof.Proof.KPieces

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F] [Named F]
variable (m : (ℓ : Loc nD τ sig) → Buf (Elt F) ℓ)

/-- The two input blocks at a point, at their literal type. -/
abbrev inA (c : Dev nD) (t : Fin cfg0.N) : Vec F S1x2048x512 .f32 := iblk m c 0 t
abbrev inB (c : Dev nD) (t : Fin cfg0.N) : Vec F S1x2048x512 .f32 := iblk m c 1 t

/-- After a first tile (an even point) the scratch holds the tile's sum over the reset value. -/
theorem scratch_at_first (c : Dev nD) (t : Fin cfg0.N) (h0 : t.val % 2 = 0) :
    (outsAt0 m c t.val t.isLt).2 = accum (inA m c t) (inB m c t) zeroAcc := by
  have h1 : ¬t.val % 2 = 1 := by omega
  rw [outsAt0_A m c t h0 h1]
  dsimp only
  exact scratch_first c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- After a second tile (an odd point) the output block holds, on every lane, this tile's sum over what the first tile
    left. -/
theorem out_at_second (c : Dev nD) (t : Fin cfg0.N) (h1 : t.val % 2 = 1) (t' : Fin cfg0.N) (ht' : t'.val = t.val - 1) :
    (outsAt0 m c t.val t.isLt).1 = k0_pay2 (accum (inA m c t) (inB m c t) (accum (inA m c t') (inB m c t') zeroAcc)) := by
  have h0 : ¬t.val % 2 = 0 := by omega
  have hp : (outsAt0 m c (t.val - 1) (Nat.lt_of_le_of_lt (Nat.sub_le _ _) t.isLt)).2 = accum (inA m c t') (inB m c t') zeroAcc := by
    have e := scratch_at_first m c t' (by omega)
    obtain ⟨n', hn'⟩ := t'
    dsimp only at ht'
    subst ht'
    exact e
  rw [outsAt0_B m c t h0 h1]
  dsimp only
  rw [hp]
  exact out_second c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t) _

end Cert.KernelIdeal.KValue

end
-- ==== Proof.KLSpec.lean ====
/-
  The mathematics both programs compute, stated once over the argument arrays and imported by every other module.

  Two arrays of 32 batches × 4096 rows × 512 features. Every row gives two statistics: its mean and its unbiased
  variance over the 512 features. The kernel takes them in ONE pass (the row's sum and its sum of squares:
  `meanK`, `varK`, with the reciprocals 1/512 and 1/511 as exact rationals); the reference in TWO (the mean first,
  then the sum of squared deviations divided by 512 − 1: `meanR`, `varR`).

  With g₁, g₂ the two means and u₁, u₂ the two variances of a row, ḡ and ū their averages, a row contributes the three
  terms of the diagonal-Gaussian divergence: the log-ratios log ḡ − log gᵢ, the traces gᵢ / ḡ, and the quadratic forms
  (ū − uᵢ)² / ḡ. The kernel folds the six into one number per row (`rowK`) — the quadratic form once, since
  (ū − u₁)² = (ū − u₂)² — and adds the rows up, two tiles of 2048 rows per batch (`totalK`); the reference sums each term
  over the 4096 rows, subtracts the row count, and halves (`batchR`, `totalR`). Both end with the mean over the 32 batches.

  The float words that occur are kept as words here; the section at the end says which real each denotes.
-/
import Idealize.ShloMosaic.PureOps.Ideal
import Idealize.ShloMosaic.Lib.ValueIdx

noncomputable section

open scoped BigOperators

namespace Cert.KLSpec

open Idealize.ShloMosaic Idealize.ShloMosaic.ValueIdx

/-- An argument array at the ideal values: 32 batches of 4096 rows of 512 features. -/
abbrev Arr : Type := (⟨3, ![32, 4096, 512]⟩ : Shape).Idx → EReal

/-! ## Row statistics -/

/-- The sum of row `r` of batch `b`. -/
def rowSum (X : Arr) (b : Fin 32) (r : Fin 4096) : EReal := ∑ k : Fin 512, X (ix3 b r k)

/-- The sum of the squares of that row. -/
def rowSqSum (X : Arr) (b : Fin 32) (r : Fin 4096) : EReal := ∑ k : Fin 512, X (ix3 b r k) * X (ix3 b r k)

/-- The row's mean as the kernel takes it: the sum times 1/512. -/
def meanK (X : Arr) (b : Fin 32) (r : Fin 4096) : EReal := rowSum X b r * ((1 / 512 : ℝ) : EReal)

/-- The row's unbiased variance as the kernel takes it, in one pass: (Σx² − (Σx)²/512) / 511. -/
def varK (X : Arr) (b : Fin 32) (r : Fin 4096) : EReal :=
  (rowSqSum X b r - rowSum X b r * rowSum X b r * ((1 / 512 : ℝ) : EReal)) * ((1 / 511 : ℝ) : EReal)

/-- The row's mean as the reference takes it: the sum divided by 512.0. -/
def meanR (X : Arr) (b : Fin 32) (r : Fin 4096) : EReal := Ideal.div (rowSum X b r) (Ideal.ofBits .f32 0x44000000#32)

/-- The row's unbiased variance as the reference takes it, in two passes: Σ(x − mean)² / (512.0 − 1). -/
def varR (X : Arr) (b : Fin 32) (r : Fin 4096) : EReal :=
  Ideal.div (∑ k : Fin 512, (X (ix3 b r k) - meanR X b r) * (X (ix3 b r k) - meanR X b r))
    (Ideal.ofBits .f32 0x44000000#32 - (((1#32 : BitVec 32).toInt : ℝ) : EReal))

/-! ## The terms of one row -/

/-- The average of two numbers, as both programs take it: the sum times 0.5. -/
def avg (a b : EReal) : EReal := (a + b) * Ideal.ofBits .f32 0x3F000000#32

/-- 1.0 divided by the averaged mean. -/
def recip (ga : EReal) : EReal := Ideal.div (Ideal.ofBits .f32 0x3F800000#32) ga

/-- The log-ratio term of one distribution: log ḡ − log g. -/
def logRatio (ga g : EReal) : EReal := Ideal.log ga - Ideal.log g

/-- The trace term of one distribution: g · (1/ḡ). -/
def trTerm (ga g : EReal) : EReal := g * recip ga

/-- The quadratic-form term of one distribution: (ū − u)² · (1/ḡ). -/
def quadTerm (ua u ga : EReal) : EReal := ((ua - u) * (ua - u)) * recip ga

/-- What one row adds to the kernel's accumulator:
    0.25·(both log-ratios) + 0.25·(both traces − 2.0) + 0.5·(the first quadratic form). -/
def rowK (g1 g2 u1 u2 : EReal) : EReal :=
  (Ideal.ofBits .f32 0x3E800000#32 * (logRatio (avg g1 g2) g1 + logRatio (avg g1 g2) g2)
    + Ideal.ofBits .f32 0x3E800000#32 * ((trTerm (avg g1 g2) g1 + trTerm (avg g1 g2) g2) - Ideal.ofBits .f32 0x40000000#32))
  + Ideal.ofBits .f32 0x3F000000#32 * quadTerm (avg u1 u2) u1 (avg g1 g2)

/-! ## The two totals -/

/-- Row `j` of a batch's first tile of 2048 rows. -/
def loRow (j : Fin 2048) : Fin 4096 := ⟨j.val, by omega⟩
/-- Row `j` of a batch's second tile. -/
def hiRow (j : Fin 2048) : Fin 4096 := ⟨2048 + j.val, by omega⟩

/-- THE KERNEL'S RESULT from the row statistics: per batch the first tile's rows added up, then the second tile's added
    to that; the 32 batch values added up and divided by 32.0. -/
def totalK (g1 g2 u1 u2 : Fin 32 → Fin 4096 → EReal) : EReal :=
  Ideal.div
    (∑ b : Fin 32,
      ((∑ j : Fin 2048, rowK (g1 b (loRow j)) (g2 b (loRow j)) (u1 b (loRow j)) (u2 b (loRow j)))
        + ∑ j : Fin 2048, rowK (g1 b (hiRow j)) (g2 b (hiRow j)) (u1 b (hiRow j)) (u2 b (hiRow j))))
    (Ideal.ofBits .f32 0x42000000#32)

/-- One batch of the reference: each term summed over the 4096 rows,
    0.5·(0.5·(Σ log-ratio₁ − 4096.0 + Σ trace₁ + Σ quad₁) + 0.5·(Σ log-ratio₂ − 4096.0 + Σ trace₂ + Σ quad₂)). -/
def batchR (g1 g2 u1 u2 : Fin 4096 → EReal) : EReal :=
  Ideal.ofBits .f32 0x3F000000#32 *
    (Ideal.ofBits .f32 0x3F000000#32 *
        ((((∑ r : Fin 4096, logRatio (avg (g1 r) (g2 r)) (g1 r)) - Ideal.ofBits .f32 0x45800000#32)
            + ∑ r : Fin 4096, trTerm (avg (g1 r) (g2 r)) (g1 r))
          + ∑ r : Fin 4096, quadTerm (avg (u1 r) (u2 r)) (u1 r) (avg (g1 r) (g2 r)))
      + Ideal.ofBits .f32 0x3F000000#32 *
        ((((∑ r : Fin 4096, logRatio (avg (g1 r) (g2 r)) (g2 r)) - Ideal.ofBits .f32 0x45800000#32)
            + ∑ r : Fin 4096, trTerm (avg (g1 r) (g2 r)) (g2 r))
          + ∑ r : Fin 4096, quadTerm (avg (u1 r) (u2 r)) (u2 r) (avg (g1 r) (g2 r))))

/-- THE REFERENCE'S RESULT from the row statistics: the 32 batch values added up and divided by 32.0. -/
def totalR (g1 g2 u1 u2 : Fin 32 → Fin 4096 → EReal) : EReal :=
  Ideal.div (∑ b : Fin 32, batchR (g1 b) (g2 b) (u1 b) (u2 b)) (Ideal.ofBits .f32 0x42000000#32)

/-! ## The float words as reals -/

theorem word_half : Ideal.ofBits .f32 0x3F000000#32 = ((1 / 2 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_32 : Ideal.ofBits .f32 0x42000000#32 = ((32 : ℝ) : EReal) := by
  simp [Ideal.ofBits, Ideal.ieee, -EReal.coe_mul]; norm_num
theorem word_512 : Ideal.ofBits .f32 0x44000000#32 = ((512 : ℝ) : EReal) := by
  simp [Ideal.ofBits, Ideal.ieee, -EReal.coe_mul]; norm_num
theorem word_4096 : Ideal.ofBits .f32 0x45800000#32 = ((4096 : ℝ) : EReal) := by
  simp [Ideal.ofBits, Ideal.ieee, -EReal.coe_mul]; norm_num
theorem word_zero : Ideal.ofBits .f32 0x00000000#32 = 0 := by
  simp [Ideal.ofBits, Ideal.ieee]

/-- The reference's variance denominator, 512.0 minus the integer 1 converted, is the real 511. -/
theorem denom_511 : Ideal.ofBits .f32 0x44000000#32 - (((1#32 : BitVec 32).toInt : ℝ) : EReal) = ((511 : ℝ) : EReal) := by
  rw [word_512, show ((1#32 : BitVec 32).toInt) = 1 from by decide, ← EReal.coe_sub]; norm_num

end Cert.KLSpec

end
-- ==== Proof.KBody.lean ====
/-
  The kernel body's arithmetic read at an index, at the ideal values (a float is an extended real, every operation exact).

  A 1×2048×512 block is viewed as 2048 rows of 512 lanes. A lane sum at row j is the sum over the 512 lanes; the named
  constants are the exact rationals 1/512 and 1/511; so the body's per-row values are, for a block x: the mean
  `bMean x j = (Σₖ x) · (1/512)` and the one-pass variance `bVar x j = (Σₖ x² − (Σₖ x)² · (1/512)) · (1/511)`; the averaged
  mean is the specification's `avg` of the two means, and the accumulate store's one entry is the accumulator plus the
  sum over the 2048 rows of the specification's row term `rowK`. The reset store writes 0, and the output block repeats
  the accumulator's entry on its 128 lanes.
-/
import proofs.«424572_j75840532512889_3_alg».proof.Proof.Gen.KernelIdeal.Skeleton
import proofs.«424572_j75840532512889_3_alg».proof.Proof.KLSpec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators
open Idealize.ShloMosaic Idealize.ShloMosaic.ValueIdx

namespace Cert.KernelIdeal.KBody

open Cert.KernelIdeal Cert.KernelIdeal.Gen Cert.KLSpec

/-- The kernel's named reciprocal of the feature count is the rational 1/512. -/
theorem inv512 : Named.named (F := Ideal) κ "a_exact_inv_512" (φ := .f32) 0x3B000000#32 = ((1 / 512 : ℝ) : EReal) :=
  IdealRules.named_const.ideal_named_scalar _ _ _ _ rfl

/-- The kernel's named reciprocal of the feature count less one is the rational 1/511. -/
theorem inv511 : Named.named (F := Ideal) κ "inv_511" (φ := .f32) 0x3B004020#32 = ((1 / 511 : ℝ) : EReal) :=
  IdealRules.named_const.ideal_named_scalar _ _ _ _ rfl

/-- A length-2048 vector viewed as a 2048×1 column reads, at (j, ·), the vector at j. -/
theorem col_apply {α : Type} (v : S2048.Idx → α) (h : S2048.ShapeCasts S2048x1) (j : Fin 2048) (u : Fin 1) :
    shapeCast S2048x1 v h (ix2 j u) = v (ix1 j) :=
  shapeCast_apply v h _ _ (by
    have hu : u.val = 0 := by omega
    rw [Shape.rowMajor_val_one, Shape.rowMajor_val_two]
    show j.val = j.val * 1 + u.val
    omega)

/-- The sum over the 512 lanes of a 2048×512 tile, read at row j. -/
theorem laneSum_apply (v : FVec Ideal S2048x512 .f32) (j : Fin 2048) :
    multiReduction .add [1] S2048 v 0x00000000#32 reduces_S2048x512_S2048 (.inl rfl) rfl (ix1 j) = ∑ k : Fin 512, v (ix2 j k) :=
  (Ideal.multiReduction_add_single v 0x00000000#32 reduces_S2048x512_S2048 (.inl rfl) rfl (ix1 j)).trans
    (Finset.sum_congr rfl fun k _ => congrArg v (funext fun a => Fin.ext (by match a with | ⟨0, _⟩ => rfl | ⟨1, _⟩ => rfl)))

/-- The sum over the 2048 rows of a 2048×1 column, read at its one entry. -/
theorem rowsSum_apply (v : FVec Ideal S2048x1 .f32) (u : Fin 1) :
    multiReduction .add [0] S1 v 0x00000000#32 reduces_S2048x1_S1 (.inl rfl) rfl (ix1 u) = ∑ j : Fin 2048, v (ix2 j u) :=
  (Ideal.multiReduction_add_single v 0x00000000#32 reduces_S2048x1_S1 (.inl rfl) rfl (ix1 u)).trans
    (Finset.sum_congr rfl fun k _ => congrArg v (funext fun a => Fin.ext (by match a with | ⟨0, _⟩ => rfl | ⟨1, _⟩ => rfl)))

theorem pay4_apply (x : FVec Ideal S1x2048x512 .f32) (j : Fin 2048) (k : Fin 512) :
    k0_pay4 (F := Ideal) x (ix2 j k) = x (ix3 (0 : Fin 1) j k) :=
  shapeCast_1ab_ab_apply x _ j k

theorem pay5_apply (x : FVec Ideal S1x2048x512 .f32) (j : Fin 2048) (u : Fin 1) :
    k0_pay5 (F := Ideal) x (ix2 j u) = ∑ k : Fin 512, x (ix3 (0 : Fin 1) j k) := by
  unfold k0_pay5
  refine (col_apply _ _ j u).trans ?_
  refine (laneSum_apply _ j).trans ?_
  exact Finset.sum_congr rfl fun k _ => pay4_apply x j k

theorem pay6_apply (x : FVec Ideal S1x2048x512 .f32) (j : Fin 2048) (k : Fin 512) :
    k0_pay6 (F := Ideal) x (ix2 j k) = x (ix3 (0 : Fin 1) j k) :=
  shapeCast_1ab_ab_apply x _ j k

theorem pay7_apply (x : FVec Ideal S1x2048x512 .f32) (j : Fin 2048) (u : Fin 1) :
    k0_pay7 (F := Ideal) x (ix2 j u) = ∑ k : Fin 512, x (ix3 (0 : Fin 1) j k) := by
  unfold k0_pay7
  refine (col_apply _ _ j u).trans ?_
  refine (laneSum_apply _ j).trans ?_
  exact Finset.sum_congr rfl fun k _ => pay6_apply x j k

/-- A row's sum inside a block. -/
def bSum (x : FVec Ideal S1x2048x512 .f32) (j : Fin 2048) : EReal := ∑ k : Fin 512, x (ix3 (0 : Fin 1) j k)
/-- A row's sum of squares inside a block. -/
def bSq (x : FVec Ideal S1x2048x512 .f32) (j : Fin 2048) : EReal := ∑ k : Fin 512, x (ix3 (0 : Fin 1) j k) * x (ix3 (0 : Fin 1) j k)
/-- A row's mean inside a block, the kernel's way. -/
def bMean (x : FVec Ideal S1x2048x512 .f32) (j : Fin 2048) : EReal := bSum x j * ((1 / 512 : ℝ) : EReal)
/-- A row's variance inside a block, the kernel's way. -/
def bVar (x : FVec Ideal S1x2048x512 .f32) (j : Fin 2048) : EReal :=
  (bSq x j - bSum x j * bSum x j * ((1 / 512 : ℝ) : EReal)) * ((1 / 511 : ℝ) : EReal)

theorem pay8_apply (x : FVec Ideal S1x2048x512 .f32) (j : Fin 2048) (u : Fin 1) :
    k0_pay8 (F := Ideal) x (ix2 j u) = bMean x j := by
  unfold k0_pay8
  show k0_pay5 (F := Ideal) x (ix2 j u) * Named.named (F := Ideal) κ "a_exact_inv_512" (φ := .f32) 0x3B000000#32 = _
  rw [pay5_apply, inv512]; rfl

theorem pay9_apply (x : FVec Ideal S1x2048x512 .f32) (j : Fin 2048) (u : Fin 1) :
    k0_pay9 (F := Ideal) x (ix2 j u) = bMean x j := by
  unfold k0_pay9
  show k0_pay7 (F := Ideal) x (ix2 j u) * Named.named (F := Ideal) κ "a_exact_inv_512" (φ := .f32) 0x3B000000#32 = _
  rw [pay7_apply, inv512]; rfl

theorem sq4_apply (x : FVec Ideal S1x2048x512 .f32) (j : Fin 2048) (u : Fin 1) :
    shapeCast S2048x1 (multiReduction .add [1] S2048 (mulf (k0_pay4 (F := Ideal) x) (k0_pay4 (F := Ideal) x)) 0x00000000#32 reduces_S2048x512_S2048 (.inl rfl) rfl) shapeCasts_S2048_S2048x1 (ix2 j u)
      = bSq x j := by
  refine (col_apply _ _ j u).trans ?_
  refine (laneSum_apply _ j).trans ?_
  exact Finset.sum_congr rfl fun k _ => by
    show k0_pay4 (F := Ideal) x (ix2 j k) * k0_pay4 (F := Ideal) x (ix2 j k) = _
    rw [pay4_apply]

theorem sq6_apply (x : FVec Ideal S1x2048x512 .f32) (j : Fin 2048) (u : Fin 1) :
    shapeCast S2048x1 (multiReduction .add [1] S2048 (mulf (k0_pay6 (F := Ideal) x) (k0_pay6 (F := Ideal) x)) 0x00000000#32 reduces_S2048x512_S2048 (.inl rfl) rfl) shapeCasts_S2048_S2048x1 (ix2 j u)
      = bSq x j := by
  refine (col_apply _ _ j u).trans ?_
  refine (laneSum_apply _ j).trans ?_
  exact Finset.sum_congr rfl fun k _ => by
    show k0_pay6 (F := Ideal) x (ix2 j k) * k0_pay6 (F := Ideal) x (ix2 j k) = _
    rw [pay6_apply]

theorem pay10_apply (x : FVec Ideal S1x2048x512 .f32) (j : Fin 2048) (u : Fin 1) :
    k0_pay10 (F := Ideal) x (ix2 j u) = bVar x j := by
  unfold k0_pay10
  show (shapeCast S2048x1 (multiReduction .add [1] S2048 (mulf (k0_pay4 (F := Ideal) x) (k0_pay4 (F := Ideal) x)) 0x00000000#32 reduces_S2048x512_S2048 (.inl rfl) rfl) shapeCasts_S2048_S2048x1 (ix2 j u)
      - k0_pay5 (F := Ideal) x (ix2 j u) * k0_pay5 (F := Ideal) x (ix2 j u) * Named.named (F := Ideal) κ "a_exact_inv_512" (φ := .f32) 0x3B000000#32)
      * Named.named (F := Ideal) κ "inv_511" (φ := .f32) 0x3B004020#32 = _
  rw [sq4_apply, pay5_apply, inv512, inv511]; rfl

theorem pay11_apply (x0 x1 : FVec Ideal S1x2048x512 .f32) (j : Fin 2048) (u : Fin 1) :
    k0_pay11 (F := Ideal) x0 x1 (ix2 j u) = avg (bMean x0 j) (bMean x1 j) := by
  unfold k0_pay11
  show (k0_pay8 (F := Ideal) x0 (ix2 j u) + k0_pay9 (F := Ideal) x1 (ix2 j u)) * Ideal.ofBits .f32 0x3F000000#32 = _
  rw [pay8_apply, pay9_apply]; rfl

theorem pay12_apply (x0 x1 : FVec Ideal S1x2048x512 .f32) (j : Fin 2048) (u : Fin 1) :
    k0_pay12 (F := Ideal) x0 x1 (ix2 j u) = bVar x0 j + bVar x1 j := by
  unfold k0_pay12
  show k0_pay10 (F := Ideal) x0 (ix2 j u)
      + (shapeCast S2048x1 (multiReduction .add [1] S2048 (mulf (k0_pay6 (F := Ideal) x1) (k0_pay6 (F := Ideal) x1)) 0x00000000#32 reduces_S2048x512_S2048 (.inl rfl) rfl) shapeCasts_S2048_S2048x1 (ix2 j u)
        - k0_pay7 (F := Ideal) x1 (ix2 j u) * k0_pay7 (F := Ideal) x1 (ix2 j u) * Named.named (F := Ideal) κ "a_exact_inv_512" (φ := .f32) 0x3B000000#32)
      * Named.named (F := Ideal) κ "inv_511" (φ := .f32) 0x3B004020#32 = _
  rw [pay10_apply, sq6_apply, pay7_apply, inv512, inv511]; rfl

/-- The accumulate store's value at its one entry: the accumulator plus the sum over the tile's rows of the row term. -/
theorem pay1_apply (v18 v20 v26 v35 v36 : FVec Ideal S2048x1 .f32) (s : FVec Ideal S1x1 .f32)
    (g1 g2 u1 u2 : Fin 2048 → EReal)
    (h18 : ∀ j, v18 (ix2 j (0 : Fin 1)) = g1 j) (h20 : ∀ j, v20 (ix2 j (0 : Fin 1)) = g2 j)
    (h26 : ∀ j, v26 (ix2 j (0 : Fin 1)) = u1 j) (h35 : ∀ j, v35 (ix2 j (0 : Fin 1)) = avg (g1 j) (g2 j))
    (h36 : ∀ j, v36 (ix2 j (0 : Fin 1)) = u1 j + u2 j) :
    k0_pay1 (F := Ideal) v18 v20 v26 v35 v36 (Ideal.ofBits .f32 0x3F000000#32) s (ix2 (0 : Fin 1) (0 : Fin 1))
      = s (ix2 (0 : Fin 1) (0 : Fin 1)) + ∑ j : Fin 2048, rowK (g1 j) (g2 j) (u1 j) (u2 j) := by
  unfold k0_pay1
  rw [shapeCast_self]
  refine congrArg (s (ix2 (0 : Fin 1) (0 : Fin 1)) + ·) ?_
  refine (shapeCast_a_1a_apply _ _ (0 : Fin 1) (0 : Fin 1)).trans ?_
  refine (rowsSum_apply _ (0 : Fin 1)).trans ?_
  refine Finset.sum_congr rfl fun j _ => ?_
  show (Ideal.ofBits .f32 0x3E800000#32 * ((Ideal.log (v35 (ix2 j 0)) - Ideal.log (v18 (ix2 j 0))) + (Ideal.log (v35 (ix2 j 0)) - Ideal.log (v20 (ix2 j 0))))
      + Ideal.ofBits .f32 0x3E800000#32 * ((v18 (ix2 j 0) * Ideal.div (Ideal.ofBits .f32 0x3F800000#32) (v35 (ix2 j 0)) + v20 (ix2 j 0) * Ideal.div (Ideal.ofBits .f32 0x3F800000#32) (v35 (ix2 j 0))) - Ideal.ofBits .f32 0x40000000#32))
      + Ideal.ofBits .f32 0x3F000000#32 * (((v36 (ix2 j 0) * Ideal.ofBits .f32 0x3F000000#32 - v26 (ix2 j 0)) * (v36 (ix2 j 0) * Ideal.ofBits .f32 0x3F000000#32 - v26 (ix2 j 0))) * Ideal.div (Ideal.ofBits .f32 0x3F800000#32) (v35 (ix2 j 0))) = _
  rw [h18, h20, h26, h35, h36]; rfl

/-- The reset store's value is 0. -/
theorem pay3_apply : k0_pay3 (F := Ideal) (ix2 (0 : Fin 1) (0 : Fin 1)) = 0 := by
  unfold k0_pay3
  rw [shapeCast_self]
  exact word_zero

/-- The output block holds the accumulator's one entry on every lane. -/
theorem pay2_apply (s : FVec Ideal S1x1 .f32) (l : Fin 128) :
    k0_pay2 (F := Ideal) s (ix3 (0 : Fin 1) (0 : Fin 1) l) = s (ix2 (0 : Fin 1) (0 : Fin 1)) := by
  unfold k0_pay2
  rw [shapeCast_self]
  refine (shapeCast_ab_1ab_apply _ _ (0 : Fin 1) (0 : Fin 1) l).trans ?_
  refine broadcastTo_apply s _ _ _ fun a => ?_
  match a with
  | ⟨0, _⟩ => rfl
  | ⟨1, _⟩ => rfl

end Cert.KernelIdeal.KBody

end
-- ==== Proof.KBlocks.lean ====
/-
  Which entries of the two argument arrays a grid point's input blocks are.

  The grid has 32 × 2 points; point `t` has coordinates (t / 2, t % 2). Both input windows cut their array of
  32 × 4096 × 512 entries into blocks of 1 × 2048 × 512 and send the point (bi, ti) to block (bi, ti, 0). So the block
  at point `t`, read at (0, j, k), is the array at batch t / 2, row (t % 2) · 2048 + j, feature k: at an even point
  2b row `j` of batch b's first tile of 2048 rows, at an odd point 2b + 1 row `j` of its second tile.
-/
import proofs.«424572_j75840532512889_3_alg».proof.Proof.Gen.KernelIdeal.Frame.Runs
import proofs.«424572_j75840532512889_3_alg».proof.Proof.KLSpec
import Idealize.ShloMosaic.Lib.Pipeline.Value
import Idealize.ShloMosaic.Lib.ValueIdx

noncomputable section

namespace Cert.KernelIdeal.KBlocks

open Cert.KernelIdeal Cert.KernelIdeal.Gen Idealize.ShloMosaic Idealize.ShloMosaic.TcCoe Idealize.ShloMosaic.ValueIdx
  Idealize.SL.Sem

variable {F : FTy → Type} [FloatOps F] [Named F] (m : (ℓ : Loc nD τ sig) → Buf (Elt F) ℓ)

/-- The two input blocks at a point, at their literal type. -/
abbrev blk0 (c : Dev nD) (t : Fin cfg0.N) : Vec F S1x2048x512 .f32 := iblk m c 0 t
abbrev blk1 (c : Dev nD) (t : Fin cfg0.N) : Vec F S1x2048x512 .f32 := iblk m c 1 t

/-! ## The block indices over the grid -/

/-- Window 0's block index at point `t` is (t / 2, t % 2, 0). -/
theorem index0 : ∀ t : Fin grid0.N,
    win0_0.index t 0 = t.val / 2 ∧ win0_0.index t 1 = t.val % 2 ∧ win0_0.index t 2 = 0 := by decide +kernel

/-- Window 1's block index at point `t` is (t / 2, t % 2, 0). -/
theorem index1 : ∀ t : Fin grid0.N,
    win0_1.index t 0 = t.val / 2 ∧ win0_1.index t 1 = t.val % 2 ∧ win0_1.index t 2 = 0 := by decide +kernel

/-! ## A block's entry is an array entry -/

/-- Window 0's block at point `t`, at (0, j, k), is the first array at (b, q, k) whenever b = t / 2 and
    q = (t % 2) · 2048 + j: on each axis the array coordinate is block index × block size + the coordinate inside. -/
theorem blk0_at (c : Dev nD) (t : Fin cfg0.N) (b : Fin 32) (q : Fin 4096) (j : Fin 2048) (k : Fin 512)
    (hb : b.val = t.val / 2) (hq : q.val = t.val % 2 * 2048 + j.val) :
    blk0 m c t (ix3 (0 : Fin 1) j k) = m ((c : Thread nD τ).loc main_arg0) (ix3 b q k) := by
  have hi := index0 t
  unfold blk0 iblk
  rw [View.read_apply]
  show V m c main_arg0 _ = _
  rw [V_main_arg0]
  congr 1
  funext a
  apply Fin.ext
  match a with
  | ⟨0, _⟩ => show win0_0.index t 0 * 1 + 1 * 0 = b.val; rw [hi.1]; omega
  | ⟨1, _⟩ => show win0_0.index t 1 * 2048 + 1 * j.val = q.val; rw [hi.2.1]; omega
  | ⟨2, _⟩ => show win0_0.index t 2 * 512 + 1 * k.val = k.val; rw [hi.2.2]; omega

/-- The same for window 1 and the second array. -/
theorem blk1_at (c : Dev nD) (t : Fin cfg0.N) (b : Fin 32) (q : Fin 4096) (j : Fin 2048) (k : Fin 512)
    (hb : b.val = t.val / 2) (hq : q.val = t.val % 2 * 2048 + j.val) :
    blk1 m c t (ix3 (0 : Fin 1) j k) = m ((c : Thread nD τ).loc main_arg1) (ix3 b q k) := by
  have hi := index1 t
  unfold blk1 iblk
  rw [View.read_apply]
  show V m c main_arg1 _ = _
  rw [V_main_arg1]
  congr 1
  funext a
  apply Fin.ext
  match a with
  | ⟨0, _⟩ => show win0_1.index t 0 * 1 + 1 * 0 = b.val; rw [hi.1]; omega
  | ⟨1, _⟩ => show win0_1.index t 1 * 2048 + 1 * j.val = q.val; rw [hi.2.1]; omega
  | ⟨2, _⟩ => show win0_1.index t 2 * 512 + 1 * k.val = k.val; rw [hi.2.2]; omega

/-! ## The two tiles of a batch -/

theorem blk0_first (c : Dev nD) (t : Fin cfg0.N) (b : Fin 32) (ht : t.val = 2 * b.val) (j : Fin 2048) (k : Fin 512) :
    blk0 m c t (ix3 (0 : Fin 1) j k) = m ((c : Thread nD τ).loc main_arg0) (ix3 b (Cert.KLSpec.loRow j) k) :=
  blk0_at m c t b (Cert.KLSpec.loRow j) j k (by omega) (by show j.val = t.val % 2 * 2048 + j.val; omega)

theorem blk0_second (c : Dev nD) (t : Fin cfg0.N) (b : Fin 32) (ht : t.val = 2 * b.val + 1) (j : Fin 2048) (k : Fin 512) :
    blk0 m c t (ix3 (0 : Fin 1) j k) = m ((c : Thread nD τ).loc main_arg0) (ix3 b (Cert.KLSpec.hiRow j) k) :=
  blk0_at m c t b (Cert.KLSpec.hiRow j) j k (by omega) (by show 2048 + j.val = t.val % 2 * 2048 + j.val; omega)

theorem blk1_first (c : Dev nD) (t : Fin cfg0.N) (b : Fin 32) (ht : t.val = 2 * b.val) (j : Fin 2048) (k : Fin 512) :
    blk1 m c t (ix3 (0 : Fin 1) j k) = m ((c : Thread nD τ).loc main_arg1) (ix3 b (Cert.KLSpec.loRow j) k) :=
  blk1_at m c t b (Cert.KLSpec.loRow j) j k (by omega) (by show j.val = t.val % 2 * 2048 + j.val; omega)

theorem blk1_second (c : Dev nD) (t : Fin cfg0.N) (b : Fin 32) (ht : t.val = 2 * b.val + 1) (j : Fin 2048) (k : Fin 512) :
    blk1 m c t (ix3 (0 : Fin 1) j k) = m ((c : Thread nD τ).loc main_arg1) (ix3 b (Cert.KLSpec.hiRow j) k) :=
  blk1_at m c t b (Cert.KLSpec.hiRow j) j k (by omega) (by show 2048 + j.val = t.val % 2 * 2048 + j.val; omega)

end Cert.KernelIdeal.KBlocks

end
-- ==== Proof.KTail.lean ====
/-
  The kernel program's host tail: what the program does with the array the kernel call leaves.

  The call's result is an array of 32 batches × 1 × 128 lanes. The program keeps lane 0 of each batch (a slice), reads
  the 32 kept numbers as a vector (a reshape), adds them up from the zero word, and divides by the word 32.0.

  First the six operations are read as one function of the call's result (`tailOf`), at any float instance. Then, at
  the exact values, the function is computed: the slice at (b, 0, 0) reads the array at (b, 0, 0), the reshape reads
  entry (b, 0, 0) of the slice at b — the two indices have the same row-major position, b —, the sum from the zero word
  is the finite sum over the 32 batches (0 + x = x), and the quotient is the exact division.
-/
import proofs.«424572_j75840532512889_3_alg».proof.Proof.Gen.KernelIdeal.Launch
import proofs.«424572_j75840532512889_3_alg».proof.Proof.KLSpec
import Idealize.ShloMosaic.Lib.StableHlo.Run
import Idealize.ShloMosaic.PureOps.Ideal.Laws
import Idealize.ShloMosaic.Lib.ValueIdx
import Idealize.ShloMosaic.Lib.Pipeline.Value

noncomputable section

open scoped BigOperators

namespace Cert.KernelIdeal.KTail

open Cert.KernelIdeal Cert.KernelIdeal.Gen Idealize.ShloMosaic Idealize.ShloMosaic.ValueIdx Idealize.ShloMosaic.StableHlo

/-! ## The six operations as one function -/

section Generic

variable {F : FTy → Type} [FloatOps F] [Named F]

/-- The host tail as a function of the kernel call's result array. -/
def tailOf (O : FVec F S32x1x128 .f32) : FVec F S_ .f32 :=
  Host.divf
    (Host.reduceAdd (shapeCast S32 (extractStridedSlice S32x1x1 ![0, 0, 0] O slices_S32x1x128_S32x1x1_0_0_0) shapeCasts_S32x1x1_S32)
      (constant S_ .f32 0x00000000#32) reducesTo_S32_S_d0 h_S_)
    (constant S_ .f32 0x42000000#32)

/-- After the six operations the last buffer holds the tail of what the call's result buffer held: each operation
    writes its own result buffer from the ones before it, and none writes the call's result. -/
theorem tail_eq (V : Valuation τ sig (Elt F)) :
    StableHlo.after (hostOps1 (F := F)) V (Proc.devRef .tc main_v4) = tailOf (V (Proc.devRef .tc main_v0)) := by
  simp only [after_cons, after_nil]
  rfl

end Generic

/-! ## The tail at the exact values -/

/-- The kept entry of batch `b`: the reshaped slice at `b` is the array at (b, 0, 0). -/
theorem kept_apply {α : Type} (O : S32x1x128.Idx → α) (b : Fin 32) :
    shapeCast S32 (extractStridedSlice S32x1x1 ![0, 0, 0] O slices_S32x1x128_S32x1x1_0_0_0) shapeCasts_S32x1x1_S32 (ix1 b)
      = O (ix3 b (0 : Fin 1) (0 : Fin 128)) := by
  refine (shapeCast_apply _ shapeCasts_S32x1x1_S32 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ O slices_S32x1x128_S32x1x1_0_0_0 _ (ix3 b (0 : Fin 1) (0 : Fin 128)) fun a => ?_
    match a with
    | ⟨0, _⟩ => exact (Nat.zero_add b.val).symm
    | ⟨1, _⟩ => rfl
    | ⟨2, _⟩ => rfl

/-- A 32-vector's indices are the 32 batch numbers. -/
def batchEquiv : (⟨1, ![32]⟩ : Shape).Idx ≃ Fin 32 where
  toFun i := i 0
  invFun b := ix1 b
  left_inv i := (eq_ix1 i).symm
  right_inv _ := rfl

/-- So a sum over a 32-vector's indices is the sum over the batch numbers. -/
theorem sum_batches (f : S32.Idx → EReal) : ∑ i, f i = ∑ b : Fin 32, f (ix1 b) :=
  (Equiv.sum_comp batchEquiv.symm f).symm

/-- THE TAIL AT THE EXACT VALUES: lane 0 of the 32 batches added up, over 32.0. -/
theorem tailOf_apply (O : FVec Ideal S32x1x128 .f32) :
    tailOf (F := Ideal) O = fun _ => Ideal.div (∑ b : Fin 32, O (ix3 b (0 : Fin 1) (0 : Fin 128))) (Ideal.ofBits .f32 0x42000000#32) := by
  funext j
  unfold tailOf Host.divf Host.reduceAdd
  rw [Ideal.hostDivf_def, Ideal.hostReduceAdd_def, Ideal.hostReduceAdd_total _ (fun a => a.elim0)]
  show Ideal.div (Ideal.ofBits .f32 0x00000000#32 + _) (Ideal.ofBits .f32 0x42000000#32) = _
  rw [Cert.KLSpec.word_zero, zero_add, sum_batches]
  refine congrArg (fun t => Ideal.div t (Ideal.ofBits .f32 0x42000000#32)) ?_
  exact Finset.sum_congr rfl fun b _ => kept_apply O b

end Cert.KernelIdeal.KTail

end
-- ==== Proof.KValue.lean ====
/-
  The kernel program's run with its result named, at the ideal values.

  Batch b is grid points 2b (its first tile of 2048 rows) and 2b + 1 (its second). After point 2b + 1 the output block —
  block b of the [32, 1, 128] result array — holds on every lane the batch value: the first tile's rows' terms added up,
  then the second tile's added to that, each row term taken from that row's means and one-pass variances of the two
  argument arrays. Only the odd points write their block back, and block b covers exactly the entries (b, 0, ·): so the
  result array ends holding batch b's value at every (b, 0, lane). The host lines after the call read lane 0 of every
  batch, add the 32 values and divide by 32.0: the specification's `totalK` of the row statistics.
-/
import proofs.«424572_j75840532512889_3_alg».proof.Proof.KPoints
import proofs.«424572_j75840532512889_3_alg».proof.Proof.KBody
import proofs.«424572_j75840532512889_3_alg».proof.Proof.KBlocks
import proofs.«424572_j75840532512889_3_alg».proof.Proof.KTail
import proofs.«424572_j75840532512889_3_alg».proof.Proof.KLSpec

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KLSpec

variable (m : (ℓ : Loc nD τ sig) → Buf (Elt Ideal) ℓ) (ρ : Dev nD → PrngReg)

/-- The two argument arrays on core `c`. -/
abbrev arrA (c : Dev nD) : Arr := m ((c : Thread nD τ).loc main_arg0)
abbrev arrB (c : Dev nD) : Arr := m ((c : Thread nD τ).loc main_arg1)

/-! ## One tile's sum, from the arrays -/

/-- A block whose rows are the rows `row j` of batch `b` of an array has that array's row means … -/
theorem bMean_eq (x : FVec Ideal S1x2048x512 .f32) (A : Arr) (b : Fin 32) (row : Fin 2048 → Fin 4096)
    (h : ∀ j k, x (ix3 (0 : Fin 1) j k) = A (ix3 b (row j) k)) (j : Fin 2048) :
    KBody.bMean x j = meanK A b (row j) := by
  unfold KBody.bMean KBody.bSum meanK rowSum
  simp only [h]

/-- … and its one-pass row variances. -/
theorem bVar_eq (x : FVec Ideal S1x2048x512 .f32) (A : Arr) (b : Fin 32) (row : Fin 2048 → Fin 4096)
    (h : ∀ j k, x (ix3 (0 : Fin 1) j k) = A (ix3 b (row j) k)) (j : Fin 2048) :
    KBody.bVar x j = varK A b (row j) := by
  unfold KBody.bVar KBody.bSq KBody.bSum varK rowSqSum rowSum
  simp only [h]

/-- The accumulate store's entry for such a pair of blocks: the accumulator plus the sum of the rows' terms. -/
theorem accum_apply (x0 x1 : FVec Ideal S1x2048x512 .f32) (s : FVec Ideal S1x1 .f32) (A0 A1 : Arr) (b : Fin 32)
    (row : Fin 2048 → Fin 4096)
    (h0 : ∀ j k, x0 (ix3 (0 : Fin 1) j k) = A0 (ix3 b (row j) k))
    (h1 : ∀ j k, x1 (ix3 (0 : Fin 1) j k) = A1 (ix3 b (row j) k)) :
    accum (F := Ideal) x0 x1 s (ix2 (0 : Fin 1) (0 : Fin 1))
      = s (ix2 (0 : Fin 1) (0 : Fin 1))
        + ∑ j : Fin 2048, rowK (meanK A0 b (row j)) (meanK A1 b (row j)) (varK A0 b (row j)) (varK A1 b (row j)) :=
  KBody.pay1_apply (k0_pay8 x0) (k0_pay9 x1) (k0_pay10 x0) (k0_pay11 x0 x1) (k0_pay12 x0 x1) s
    (fun j => meanK A0 b (row j)) (fun j => meanK A1 b (row j)) (fun j => varK A0 b (row j)) (fun j => varK A1 b (row j))
    (fun j => (KBody.pay8_apply x0 j 0).trans (bMean_eq x0 A0 b row h0 j))
    (fun j => (KBody.pay9_apply x1 j 0).trans (bMean_eq x1 A1 b row h1 j))
    (fun j => (KBody.pay10_apply x0 j 0).trans (bVar_eq x0 A0 b row h0 j))
    (fun j => (KBody.pay11_apply x0 x1 j 0).trans (by rw [bMean_eq x0 A0 b row h0 j, bMean_eq x1 A1 b row h1 j]))
    (fun j => (KBody.pay12_apply x0 x1 j 0).trans (by rw [bVar_eq x0 A0 b row h0 j, bVar_eq x1 A1 b row h1 j]))

/-! ## The batch value and the result array -/

/-- Batch `b`'s value: the first tile's row terms added up, then the second tile's added to that. -/
def batchVal (c : Dev nD) (b : Fin 32) : EReal :=
  (∑ j : Fin 2048, rowK (meanK (arrA m c) b (loRow j)) (meanK (arrB m c) b (loRow j)) (varK (arrA m c) b (loRow j)) (varK (arrB m c) b (loRow j)))
    + ∑ j : Fin 2048, rowK (meanK (arrA m c) b (hiRow j)) (meanK (arrB m c) b (hiRow j)) (varK (arrA m c) b (hiRow j)) (varK (arrB m c) b (hiRow j))

/-- After batch `b`'s second tile (point 2b + 1) every lane of the output block holds the batch value. -/
theorem block_value (c : Dev nD) (t : Fin cfg0.N) (b : Fin 32) (ht : t.val = 2 * b.val + 1) (y : S1x1x128.Idx) :
    (outsAt0 m c t.val t.isLt).1 y = batchVal m c b := by
  have hN : cfg0.N = 64 := N_0
  obtain ⟨u, v, l, rfl⟩ : ∃ (u : Fin 1) (v : Fin 1) (l : Fin 128), y = ix3 u v l := ⟨y 0, y 1, y 2, eq_ix3 y⟩
  obtain rfl : u = 0 := Subsingleton.elim _ _
  obtain rfl : v = 0 := Subsingleton.elim _ _
  have ht' : (⟨t.val - 1, by omega⟩ : Fin cfg0.N).val = 2 * b.val := by show t.val - 1 = 2 * b.val; omega
  rw [out_at_second m c t (by omega) ⟨t.val - 1, by omega⟩ rfl]
  refine (KBody.pay2_apply _ l).trans ?_
  refine (accum_apply _ _ _ (arrA m c) (arrB m c) b hiRow
    (fun j k => KBlocks.blk0_second m c t b ht j k) (fun j k => KBlocks.blk1_second m c t b ht j k)).trans ?_
  rw [accum_apply _ _ _ (arrA m c) (arrB m c) b loRow
    (fun j k => KBlocks.blk0_first m c ⟨t.val - 1, by omega⟩ b ht' j k)
    (fun j k => KBlocks.blk1_first m c ⟨t.val - 1, by omega⟩ b ht' j k),
    show (zeroAcc (F := Ideal)) (ix2 (0 : Fin 1) (0 : Fin 1)) = 0 from KBody.pay3_apply, zero_add]
  rfl

/-- The result array the run ends with: batch `b`'s value at every entry (b, ·, ·). -/
def outArr (c : Dev nD) : S32x1x128.Idx → EReal := fun i => batchVal m c ⟨(i 0).val, (i 0).isLt⟩

/-- The output window's block index at point t is (t / 2, 0, 0), decided over the grid. -/
theorem outIndex : ∀ t : Fin cfg0.N, win0_2.index t (0 : Fin 3) = t.val / 2 ∧ win0_2.index t (1 : Fin 3) = 0 ∧ win0_2.index t (2 : Fin 3) = 0 :=
  (by decide +kernel : ∀ t : Fin grid0.N, win0_2.index t (0 : Fin 3) = t.val / 2 ∧ win0_2.index t (1 : Fin 3) = 0 ∧ win0_2.index t (2 : Fin 3) = 0)

/-- What a writing point writes back is its block of the result array. -/
theorem flushed_eq (c : Dev nD) (t : Fin cfg0.N) (hf : (cfg0.win 2).flush t = true) :
    (dats m 0 c).flushed 2 t = ((cfg0.win 2).blk t).view.read (Elt Ideal) (outArr m c) := by
  have h1 : t.val % 2 = 1 := (flush0_2 t).mp hf
  have hN : cfg0.N = 64 := N_0
  obtain ⟨e0, e1, e2⟩ := outIndex t
  show (cfg0.win 2).cut (grid0.coords t) ((dats m 0 c).after 2 t) = _
  rw [after0_2]
  funext y
  refine (block_value m c t ⟨t.val / 2, by omega⟩ (by show t.val = 2 * (t.val / 2) + 1; omega) y).trans ?_
  show _ = outArr m c (((cfg0.win 2).blk t).view.emb y)
  unfold outArr
  refine congrArg (batchVal m c) (Fin.ext ?_)
  show t.val / 2 = win0_2.index t (0 : Fin 3) * 1 + 1 * (y 0).val
  have hy : (y 0).val < 1 := (y 0).isLt
  omega

/-- An entry is in point t's block iff each coordinate is in the block's range on its axis. -/
theorem mem_blk (t : Fin cfg0.N) (i : S32x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- Every entry (b, ·, ·) is in the block written back after batch b's second tile. -/
theorem cover (i : S32x1x128.Idx) : ∃ t : Fin cfg0.N, (cfg0.win 2).flush t = true ∧ i ∈ ((cfg0.win 2).blk t).view.set := by
  have hN : cfg0.N = 64 := N_0
  have hN' : grid0.N = 64 := N_0
  have h0 : (i 0).val < 32 := (i 0).isLt
  have h1 : (i 1).val < 1 := (i 1).isLt
  have h2 : (i 2).val < 128 := (i 2).isLt
  refine ⟨⟨2 * (i 0).val + 1, by omega⟩, (flush0_2 _).mpr (by show (2 * (i 0).val + 1) % 2 = 1; omega), ?_⟩
  rw [mem_blk]
  obtain ⟨e0, e1, e2⟩ := outIndex ⟨2 * (i 0).val + 1, by omega⟩
  have e0' : win0_2.index ⟨2 * (i 0).val + 1, by omega⟩ (0 : Fin 3) = (i 0).val := by rw [e0]; show (2 * (i 0).val + 1) / 2 = (i 0).val; omega
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 128 ≤ (i 2).val ∧ (i 2).val < win0_2.index _ (2 : Fin 3) * 128 + 128; rw [e2]; omega

/-- So the result array ends holding every batch's value on its block. -/
theorem final (c : Dev nD) : (dats m 0 c).arrAt 2 cfg0.N = outArr m c :=
  (dats m 0 c).arrAt_eq_of_cover 2 (outArr m c) (flushed_eq m c) (cover)

/-! ## The host lines after the call, and the run -/

/-- The final scalar is no array of the pipeline and not scoped. -/
theorem v4_rest : main_v4 ∈ Pipeline.restRefs sig (cfgs 0).spec :=
  Pipeline.mem_restRefs_of main_v4 rfl (fun w => by fin_cases w <;> decide)

/-- What the host lines leave in the result: the mean over the 32 batches of the batch values. -/
theorem tail_value (c : Dev nD) :
    Pipeline.afterTail₀ cfgs (dats m) 0 (V0 m) [hostOps1] c main_v4
      = fun _ => totalK (meanK (arrA m c)) (meanK (arrB m c)) (varK (arrA m c)) (varK (arrB m c)) := by
  unfold Pipeline.afterTail₀
  show StableHlo.after hostOps1 _ (Proc.devRef .tc main_v4) = _
  refine (KTail.tail_eq _).trans ?_
  refine (congrArg KTail.tailOf ((Pipeline.withArrays_arr spec0 launch0.win.arr_inj c _ _ 2).trans (final m c))).trans ?_
  refine (KTail.tailOf_apply _).trans ?_
  rfl

/-- The run, read: the result at `totalK` of the row statistics, the arguments unchanged. -/
theorem run : θ_run (defs (F := Ideal)) (onTc (τ := τ) (main (F := Ideal))) ⟨m, fun _ => 0, ρ⟩ fun r => ∀ c : Dev nD,
      r.2.mem ((c.tc : Thread nD τ).loc main_v4)
          = (fun _ => totalK (meanK (m ((c.tc : Thread nD τ).loc main_arg0))) (meanK (m ((c.tc : Thread nD τ).loc main_arg1)))
                        (varK (m ((c.tc : Thread nD τ).loc main_arg0))) (varK (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 v4_rest).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KValue

end
-- ==== Proof.RefFn.lean ====
/-
  The reference program as pure functions of its two argument arrays, one definition per stage of its mathematics,
  at any float instance: the row sums; the row mean (the sum over 512.0); the variance function — the mean as a
  column, the centred array, the sum of its squares over 512.0 − ddof, guarded by "denominator > 0" with a NaN
  fallback —; and the tail that averages means and variances, forms the reciprocal of the averaged mean, sums the
  log-ratio, trace and quadratic-form terms over the rows, subtracts the row count 4096.0, halves, adds the two
  sides, halves again, and takes the mean over the 32 batches.

  Three other modules meet here: the program's run ends at `outOf` of its arguments; the row statistics read at an
  index are the specification's `meanR` / `varR`; the tail is the specification's `totalR`.
-/
import proofs.«424572_j75840532512889_3_alg».proof.Proof.Gen.ReferenceIdeal

noncomputable section

namespace Cert.ReferenceIdeal.RefFn

open Cert.ReferenceIdeal Cert.ReferenceIdeal.Gen Idealize.ShloMosaic

variable {F : FTy → Type} [FloatOps F]

/-! ## Row statistics -/

/-- The sum of every row over its 512 features (from 0.0). -/
def rowSums (X : FVec F S32x4096x512 .f32) : FVec F S32x4096 .f32 :=
  Host.reduceAdd X (constant S_ .f32 0x00000000#32) reducesTo_S32x4096x512_S32x4096_d2 h_S_

/-- The row means: the sums over 512.0. -/
def meanOf (X : FVec F S32x4096x512 .f32) : FVec F S32x4096 .f32 :=
  Host.divf (rowSums X) (broadcastInDim S32x4096 ![] bcast_S_S32x4096 (constant S_ .f32 0x44000000#32))

/-- The row means as a column, as the variance function takes them. -/
def meanCol (X : FVec F S32x4096x512 .f32) : FVec F S32x4096x1 .f32 :=
  Host.divf (broadcastInDim S32x4096x1 ![0, 1] bcast_S32x4096_S32x4096x1_0_1 (rowSums X))
    (broadcastInDim S32x4096x1 ![] bcast_S_S32x4096x1 (constant S_ .f32 0x44000000#32))

/-- The array minus its row means. -/
def centered (X : FVec F S32x4096x512 .f32) : FVec F S32x4096x512 .f32 :=
  subf X (broadcastInDim S32x4096x512 ![0, 1, 2] bcast_S32x4096x1_S32x4096x512_0_1_2 (meanCol X))

/-- The variance's denominator: 512.0 minus the degrees-of-freedom correction, converted from its integer. -/
def denom (d : IVec S_ 32) : FVec F S_ .f32 :=
  subf (constant S_ .f32 0x44000000#32) (sitofp .f32 d)

/-- The variance function: the sum of the centred squares over the denominator where the denominator is positive,
    NaN elsewhere. -/
def varOf (X : FVec F S32x4096x512 .f32) (d : IVec S_ 32) : FVec F S32x4096 .f32 :=
  select (broadcastInDim S32x4096 ![] bcast_S_S32x4096 (cmpf .ogt (denom (F := F) d) (constant S_ .f32 0x00000000#32)))
    (Host.divf
      (Host.reduceAdd (mulf (centered X) (centered X)) (constant S_ .f32 0x00000000#32) reducesTo_S32x4096x512_S32x4096_d2 h_S_)
      (broadcastInDim S32x4096 ![] bcast_S_S32x4096 (denom (F := F) d)))
    (broadcastInDim S32x4096 ![] bcast_S_S32x4096 (id (constant S_ .f32 0x7FC00000#32)))

/-! ## The tail -/

/-- The sum over the 4096 rows of each batch (from 0.0). -/
def sumRows (Y : FVec F S32x4096 .f32) : FVec F S32 .f32 :=
  Host.reduceAdd Y (constant S_ .f32 0x00000000#32) reducesTo_S32x4096_S32_d1 h_S_

/-- 0.5 at every row. -/
def halfRow : FVec F S32x4096 .f32 := broadcastInDim S32x4096 ![] bcast_S_S32x4096 (constant S_ .f32 0x3F000000#32)

/-- 0.5 at every batch. -/
def halfVec : FVec F S32 .f32 := broadcastInDim S32 ![] bcast_S_S32 (constant S_ .f32 0x3F000000#32)

/-- The average of two row statistics: their sum times 0.5. -/
def avgOf (A B : FVec F S32x4096 .f32) : FVec F S32x4096 .f32 := mulf (addf A B) halfRow

/-- 1.0 over the averaged means. -/
def recipOf (GA : FVec F S32x4096 .f32) : FVec F S32x4096 .f32 :=
  Host.divf (broadcastInDim S32x4096 ![] bcast_S_S32x4096 (constant S_ .f32 0x3F800000#32)) GA

/-- One distribution's side, per batch: Σ log-ratio − 4096.0 + Σ trace + Σ quadratic form. -/
def sideOf (GA G UA U : FVec F S32x4096 .f32) : FVec F S32 .f32 :=
  addf
    (addf
      (subf (sumRows (subf (Host.log GA) (Host.log G))) (broadcastInDim S32 ![] bcast_S_S32 (constant S_ .f32 0x45800000#32)))
      (sumRows (mulf G (recipOf GA))))
    (sumRows (mulf (mulf (subf UA U) (subf UA U)) (recipOf GA)))

/-- The result from the two variances and the two means: 0.5·(0.5·side₁ + 0.5·side₂) per batch, then the mean over
    the 32 batches. -/
def resultOf (U1 U2 G1 G2 : FVec F S32x4096 .f32) : FVec F S_ .f32 :=
  Host.divf
    (Host.reduceAdd
      (mulf halfVec
        (addf (mulf halfVec (sideOf (avgOf G1 G2) G1 (avgOf U1 U2) U1))
          (mulf halfVec (sideOf (avgOf G1 G2) G2 (avgOf U1 U2) U2))))
      (constant S_ .f32 0x00000000#32) reducesTo_S32_S_d0 h_S_)
    (constant S_ .f32 0x42000000#32)

/-- The whole program: the variances with one degree of freedom removed, the means, the tail. -/
def outOf (X1 X2 : FVec F S32x4096x512 .f32) : FVec F S_ .f32 :=
  resultOf (varOf X1 (constantI S_ 32 1#32)) (varOf X2 (constantI S_ 32 1#32)) (meanOf X1) (meanOf X2)

end Cert.ReferenceIdeal.RefFn

end
-- ==== Proof.RefOps.lean ====
/-
  The reference program's run. The program's entry function calls the variance function twice, and the variance
  function calls the select helper once; a call means the callee's body run on the operands, so the entry function
  is one straight line of host operations: its own, with each call replaced by the callee's operations over that
  call's buffers. The line is listed here in order; the entry function is shown equal to it; every buffer then ends
  at the fold of the line's operations over the launch contents; and that fold, read at the result buffer, is the
  reference's pure function of the two argument arrays, while the argument buffers are left as they were.
-/
import proofs.«424572_j75840532512889_3_alg».proof.Proof.Gen.ReferenceIdeal
import proofs.«424572_j75840532512889_3_alg».proof.Proof.RefFn
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, both calls of the variance function unfolded where they stand. First the
    integer one (the degrees of freedom removed), then the variance's twenty-two operations over the first call's
    buffers: the zero, the row sums, their column, 512.0 and its broadcast, the mean column, its broadcast along the
    features, the centred array, its square, the integer converted, 512.0 again, 512.0 minus the converted integer,
    the zero, the sum of squares, the denominator's broadcast, the quotient, the zero, the test "denominator > 0", the
    NaN — nineteen — and the select helper's three (the NaN converted to its own type, its broadcast, the select).
    Then the integer one again and the same twenty-two over the second call's buffers. Then the seventy of the tail:
    the averaged variance, the two means and their average, the logarithms, the reciprocal, the five row sums per
    side, the row count subtracted, the halvings, the batch mean. One hundred and sixteen in all. -/
abbrev ops : List (HloOp τ sig (Elt F)) :=
  [ nullary main_c (constantI S_ 32 1#32),
    TRef.nullary main_call0.cst (constant S_ .f32 0x00000000#32),
    TRef.binary (.of main_arg0) main_call0.cst main_call0.v0 (fun x v => Host.reduceAdd x v reducesTo_S32x4096x512_S32x4096_d2 h_S_),
    TRef.unary main_call0.v0 main_call0.v1 (broadcastInDim S32x4096x1 ![0, 1] bcast_S32x4096_S32x4096x1_0_1),
    TRef.nullary main_call0.cst_0 (constant S_ .f32 0x44000000#32),
    TRef.unary main_call0.cst_0 main_call0.v2 (broadcastInDim S32x4096x1 ![] bcast_S_S32x4096x1),
    TRef.binary main_call0.v1 main_call0.v2 main_call0.v3 Host.divf,
    TRef.unary main_call0.v3 main_call0.v4 (broadcastInDim S32x4096x512 ![0, 1, 2] bcast_S32x4096x1_S32x4096x512_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x4096x512_S32x4096_d2 h_S_),
    TRef.unary main_call0.v8 main_call0.v10 (broadcastInDim S32x4096 ![] bcast_S_S32x4096),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S32x4096 ![] bcast_S_S32x4096),
    TRef.ternary main_call0.v12 main_call0.v11 main_call0.call0.v1 main_call0.call0.v2 (fun p a b => select (broadcastInDim S32x4096 ![] bcast_S_S32x4096 p) a b),
    nullary main_c_0 (constantI S_ 32 1#32),
    TRef.nullary main_call1.cst (constant S_ .f32 0x00000000#32),
    TRef.binary (.of main_arg1) main_call1.cst main_call1.v0 (fun x v => Host.reduceAdd x v reducesTo_S32x4096x512_S32x4096_d2 h_S_),
    TRef.unary main_call1.v0 main_call1.v1 (broadcastInDim S32x4096x1 ![0, 1] bcast_S32x4096_S32x4096x1_0_1),
    TRef.nullary main_call1.cst_0 (constant S_ .f32 0x44000000#32),
    TRef.unary main_call1.cst_0 main_call1.v2 (broadcastInDim S32x4096x1 ![] bcast_S_S32x4096x1),
    TRef.binary main_call1.v1 main_call1.v2 main_call1.v3 Host.divf,
    TRef.unary main_call1.v3 main_call1.v4 (broadcastInDim S32x4096x512 ![0, 1, 2] bcast_S32x4096x1_S32x4096x512_0_1_2),
    TRef.binary (.of main_arg1) main_call1.v4 main_call1.v5 subf,
    TRef.binary main_call1.v5 main_call1.v5 main_call1.v6 mulf,
    TRef.unary (.of main_c_0) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x4096x512_S32x4096_d2 h_S_),
    TRef.unary main_call1.v8 main_call1.v10 (broadcastInDim S32x4096 ![] bcast_S_S32x4096),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S32x4096 ![] bcast_S_S32x4096),
    TRef.ternary main_call1.v12 main_call1.v11 main_call1.call0.v1 main_call1.call0.v2 (fun p a b => select (broadcastInDim S32x4096 ![] bcast_S_S32x4096 p) a b),
    binary main_v0 main_v1 main_v2 (addf : (⟨S32x4096, .f32⟩ : BufTy).Contents (Elt F) → (⟨S32x4096, .f32⟩ : BufTy).Contents (Elt F) → (⟨S32x4096, .f32⟩ : BufTy).Contents (Elt F)),
    nullary main_cst (constant S_ .f32 0x3F000000#32),
    unary main_cst main_v3 (broadcastInDim S32x4096 ![] bcast_S_S32x4096 : (⟨S_, .f32⟩ : BufTy).Contents (Elt F) → (⟨S32x4096, .f32⟩ : BufTy).Contents (Elt F)),
    binary main_v2 main_v3 main_v4 (mulf : (⟨S32x4096, .f32⟩ : BufTy).Contents (Elt F) → (⟨S32x4096, .f32⟩ : BufTy).Contents (Elt F) → (⟨S32x4096, .f32⟩ : BufTy).Contents (Elt F)),
    nullary main_cst_1 (constant S_ .f32 0x00000000#32),
    binary main_arg0 main_cst_1 main_v5 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    nullary main_cst_2 (constant S_ .f32 0x44000000#32),
    unary main_cst_2 main_v6 (broadcastInDim S32x4096 ![] bcast_S_S32x4096 : (⟨S_, .f32⟩ : BufTy).Contents (Elt F) → (⟨S32x4096, .f32⟩ : BufTy).Contents (Elt F)),
    binary main_v5 main_v6 main_v7 (Host.divf : (⟨S32x4096, .f32⟩ : BufTy).Contents (Elt F) → (⟨S32x4096, .f32⟩ : BufTy).Contents (Elt F) → (⟨S32x4096, .f32⟩ : BufTy).Contents (Elt F)),
    nullary main_cst_3 (constant S_ .f32 0x00000000#32),
    binary main_arg1 main_cst_3 main_v8 ((fun x v => Host.reduceAdd x v reducesTo_S32x4096x512_S32x4096_d2 h_S_) : (⟨S32x4096x512, .f32⟩ : BufTy).Contents (Elt F) → (⟨S_, .f32⟩ : BufTy).Contents (Elt F) → (⟨S32x4096, .f32⟩ : BufTy).Contents (Elt F)),
    nullary main_cst_4 (constant S_ .f32 0x44000000#32),
    unary main_cst_4 main_v9 (broadcastInDim S32x4096 ![] bcast_S_S32x4096 : (⟨S_, .f32⟩ : BufTy).Contents (Elt F) → (⟨S32x4096, .f32⟩ : BufTy).Contents (Elt F)),
    binary main_v8 main_v9 main_v10 (Host.divf : (⟨S32x4096, .f32⟩ : BufTy).Contents (Elt F) → (⟨S32x4096, .f32⟩ : BufTy).Contents (Elt F) → (⟨S32x4096, .f32⟩ : BufTy).Contents (Elt F)),
    binary main_v7 main_v10 main_v11 (addf : (⟨S32x4096, .f32⟩ : BufTy).Contents (Elt F) → (⟨S32x4096, .f32⟩ : BufTy).Contents (Elt F) → (⟨S32x4096, .f32⟩ : BufTy).Contents (Elt F)),
    nullary main_cst_5 (constant S_ .f32 0x3F000000#32),
    unary main_cst_5 main_v12 (broadcastInDim S32x4096 ![] bcast_S_S32x4096 : (⟨S_, .f32⟩ : BufTy).Contents (Elt F) → (⟨S32x4096, .f32⟩ : BufTy).Contents (Elt F)),
    binary main_v11 main_v12 main_v13 (mulf : (⟨S32x4096, .f32⟩ : BufTy).Contents (Elt F) → (⟨S32x4096, .f32⟩ : BufTy).Contents (Elt F) → (⟨S32x4096, .f32⟩ : BufTy).Contents (Elt F)),
    unary main_v13 main_v14 (Host.log : (⟨S32x4096, .f32⟩ : BufTy).Contents (Elt F) → (⟨S32x4096, .f32⟩ : BufTy).Contents (Elt F)),
    unary main_v7 main_v15 (Host.log : (⟨S32x4096, .f32⟩ : BufTy).Contents (Elt F) → (⟨S32x4096, .f32⟩ : BufTy).Contents (Elt F)),
    binary main_v14 main_v15 main_v16 (subf : (⟨S32x4096, .f32⟩ : BufTy).Contents (Elt F) → (⟨S32x4096, .f32⟩ : BufTy).Contents (Elt F) → (⟨S32x4096, .f32⟩ : BufTy).Contents (Elt F)),
    nullary main_cst_6 (constant S_ .f32 0x00000000#32),
    binary main_v16 main_cst_6 main_v17 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    unary main_v10 main_v18 (Host.log : (⟨S32x4096, .f32⟩ : BufTy).Contents (Elt F) → (⟨S32x4096, .f32⟩ : BufTy).Contents (Elt F)),
    binary main_v14 main_v18 main_v19 (subf : (⟨S32x4096, .f32⟩ : BufTy).Contents (Elt F) → (⟨S32x4096, .f32⟩ : BufTy).Contents (Elt F) → (⟨S32x4096, .f32⟩ : BufTy).Contents (Elt F)),
    nullary main_cst_7 (constant S_ .f32 0x00000000#32),
    binary main_v19 main_cst_7 main_v20 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    nullary main_cst_8 (constant S_ .f32 0x3F800000#32),
    unary main_cst_8 main_v21 (broadcastInDim S32x4096 ![] bcast_S_S32x4096 : (⟨S_, .f32⟩ : BufTy).Contents (Elt F) → (⟨S32x4096, .f32⟩ : BufTy).Contents (Elt F)),
    binary main_v21 main_v13 main_v22 (Host.divf : (⟨S32x4096, .f32⟩ : BufTy).Contents (Elt F) → (⟨S32x4096, .f32⟩ : BufTy).Contents (Elt F) → (⟨S32x4096, .f32⟩ : BufTy).Contents (Elt F)),
    binary main_v7 main_v22 main_v23 (mulf : (⟨S32x4096, .f32⟩ : BufTy).Contents (Elt F) → (⟨S32x4096, .f32⟩ : BufTy).Contents (Elt F) → (⟨S32x4096, .f32⟩ : BufTy).Contents (Elt F)),
    nullary main_cst_9 (constant S_ .f32 0x00000000#32),
    binary main_v23 main_cst_9 main_v24 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    binary main_v10 main_v22 main_v25 (mulf : (⟨S32x4096, .f32⟩ : BufTy).Contents (Elt F) → (⟨S32x4096, .f32⟩ : BufTy).Contents (Elt F) → (⟨S32x4096, .f32⟩ : BufTy).Contents (Elt F)),
    nullary main_cst_10 (constant S_ .f32 0x00000000#32),
    binary main_v25 main_cst_10 main_v26 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    binary main_v4 main_v0 main_v27 (subf : (⟨S32x4096, .f32⟩ : BufTy).Contents (Elt F) → (⟨S32x4096, .f32⟩ : BufTy).Contents (Elt F) → (⟨S32x4096, .f32⟩ : BufTy).Contents (Elt F)),
    binary main_v4 main_v1 main_v28 (subf : (⟨S32x4096, .f32⟩ : BufTy).Contents (Elt F) → (⟨S32x4096, .f32⟩ : BufTy).Contents (Elt F) → (⟨S32x4096, .f32⟩ : BufTy).Contents (Elt F)),
    binary main_v27 main_v27 main_v29 (mulf : (⟨S32x4096, .f32⟩ : BufTy).Contents (Elt F) → (⟨S32x4096, .f32⟩ : BufTy).Contents (Elt F) → (⟨S32x4096, .f32⟩ : BufTy).Contents (Elt F)),
    binary main_v29 main_v22 main_v30 (mulf : (⟨S32x4096, .f32⟩ : BufTy).Contents (Elt F) → (⟨S32x4096, .f32⟩ : BufTy).Contents (Elt F) → (⟨S32x4096, .f32⟩ : BufTy).Contents (Elt F)),
    nullary main_cst_11 (constant S_ .f32 0x00000000#32),
    binary main_v30 main_cst_11 main_v31 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    binary main_v28 main_v28 main_v32 (mulf : (⟨S32x4096, .f32⟩ : BufTy).Contents (Elt F) → (⟨S32x4096, .f32⟩ : BufTy).Contents (Elt F) → (⟨S32x4096, .f32⟩ : BufTy).Contents (Elt F)),
    binary main_v32 main_v22 main_v33 (mulf : (⟨S32x4096, .f32⟩ : BufTy).Contents (Elt F) → (⟨S32x4096, .f32⟩ : BufTy).Contents (Elt F) → (⟨S32x4096, .f32⟩ : BufTy).Contents (Elt F)),
    nullary main_cst_12 (constant S_ .f32 0x00000000#32),
    binary main_v33 main_cst_12 main_v34 ((fun x v => Host.reduceAdd x v reducesTo_S32x4096_S32_d1 h_S_) : (⟨S32x4096, .f32⟩ : BufTy).Contents (Elt F) → (⟨S_, .f32⟩ : BufTy).Contents (Elt F) → (⟨S32, .f32⟩ : BufTy).Contents (Elt F)),
    nullary main_cst_13 (constant S_ .f32 0x45800000#32),
    unary main_cst_13 main_v35 (broadcastInDim S32 ![] bcast_S_S32 : (⟨S_, .f32⟩ : BufTy).Contents (Elt F) → (⟨S32, .f32⟩ : BufTy).Contents (Elt F)),
    binary main_v17 main_v35 main_v36 (subf : (⟨S32, .f32⟩ : BufTy).Contents (Elt F) → (⟨S32, .f32⟩ : BufTy).Contents (Elt F) → (⟨S32, .f32⟩ : BufTy).Contents (Elt F)),
    binary main_v36 main_v24 main_v37 (addf : (⟨S32, .f32⟩ : BufTy).Contents (Elt F) → (⟨S32, .f32⟩ : BufTy).Contents (Elt F) → (⟨S32, .f32⟩ : BufTy).Contents (Elt F)),
    binary main_v37 main_v31 main_v38 (addf : (⟨S32, .f32⟩ : BufTy).Contents (Elt F) → (⟨S32, .f32⟩ : BufTy).Contents (Elt F) → (⟨S32, .f32⟩ : BufTy).Contents (Elt F)),
    nullary main_cst_14 (constant S_ .f32 0x3F000000#32),
    unary main_cst_14 main_v39 (broadcastInDim S32 ![] bcast_S_S32 : (⟨S_, .f32⟩ : BufTy).Contents (Elt F) → (⟨S32, .f32⟩ : BufTy).Contents (Elt F)),
    binary main_v39 main_v38 main_v40 (mulf : (⟨S32, .f32⟩ : BufTy).Contents (Elt F) → (⟨S32, .f32⟩ : BufTy).Contents (Elt F) → (⟨S32, .f32⟩ : BufTy).Contents (Elt F)),
    nullary main_cst_15 (constant S_ .f32 0x45800000#32),
    unary main_cst_15 main_v41 (broadcastInDim S32 ![] bcast_S_S32 : (⟨S_, .f32⟩ : BufTy).Contents (Elt F) → (⟨S32, .f32⟩ : BufTy).Contents (Elt F)),
    binary main_v20 main_v41 main_v42 (subf : (⟨S32, .f32⟩ : BufTy).Contents (Elt F) → (⟨S32, .f32⟩ : BufTy).Contents (Elt F) → (⟨S32, .f32⟩ : BufTy).Contents (Elt F)),
    binary main_v42 main_v26 main_v43 (addf : (⟨S32, .f32⟩ : BufTy).Contents (Elt F) → (⟨S32, .f32⟩ : BufTy).Contents (Elt F) → (⟨S32, .f32⟩ : BufTy).Contents (Elt F)),
    binary main_v43 main_v34 main_v44 (addf : (⟨S32, .f32⟩ : BufTy).Contents (Elt F) → (⟨S32, .f32⟩ : BufTy).Contents (Elt F) → (⟨S32, .f32⟩ : BufTy).Contents (Elt F)),
    nullary main_cst_16 (constant S_ .f32 0x3F000000#32),
    unary main_cst_16 main_v45 (broadcastInDim S32 ![] bcast_S_S32 : (⟨S_, .f32⟩ : BufTy).Contents (Elt F) → (⟨S32, .f32⟩ : BufTy).Contents (Elt F)),
    binary main_v45 main_v44 main_v46 (mulf : (⟨S32, .f32⟩ : BufTy).Contents (Elt F) → (⟨S32, .f32⟩ : BufTy).Contents (Elt F) → (⟨S32, .f32⟩ : BufTy).Contents (Elt F)),
    binary main_v40 main_v46 main_v47 (addf : (⟨S32, .f32⟩ : BufTy).Contents (Elt F) → (⟨S32, .f32⟩ : BufTy).Contents (Elt F) → (⟨S32, .f32⟩ : BufTy).Contents (Elt F)),
    nullary main_cst_17 (constant S_ .f32 0x3F000000#32),
    unary main_cst_17 main_v48 (broadcastInDim S32 ![] bcast_S_S32 : (⟨S_, .f32⟩ : BufTy).Contents (Elt F) → (⟨S32, .f32⟩ : BufTy).Contents (Elt F)),
    binary main_v48 main_v47 main_v49 (mulf : (⟨S32, .f32⟩ : BufTy).Contents (Elt F) → (⟨S32, .f32⟩ : BufTy).Contents (Elt F) → (⟨S32, .f32⟩ : BufTy).Contents (Elt F)),
    nullary main_cst_18 (constant S_ .f32 0x00000000#32),
    binary main_v49 main_cst_18 main_v50 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_19 (constant S_ .f32 0x42000000#32),
    binary main_v50 main_cst_19 main_v51 (Host.divf : (⟨S_, .f32⟩ : BufTy).Contents (Elt F) → (⟨S_, .f32⟩ : BufTy).Contents (Elt F) → (⟨S_, .f32⟩ : BufTy).Contents (Elt F)) ]

-- one re-association per statement: the rewrite under the chain recurses once per bind
set_option maxRecDepth 4096 in
set_option maxHeartbeats 4000000 in
/-- The entry function is that straight line: its two windows in order, the callees' definitions unfolded at their
    calls and the call records at their fields; both sides are then one chain of steps once sequencing is
    re-associated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., binary_bufs_sub .., nullary_bufs_sub .., unary_bufs_sub .., binary_bufs_sub ..,
    binary_bufs_sub .., nullary_bufs_sub .., unary_bufs_sub .., binary_bufs_sub .., unary_bufs_sub .., unary_bufs_sub ..,
    binary_bufs_sub .., nullary_bufs_sub .., binary_bufs_sub .., unary_bufs_sub .., binary_bufs_sub .., nullary_bufs_sub ..,
    binary_bufs_sub .., nullary_bufs_sub .., unary_bufs_sub .., binary_bufs_sub .., binary_bufs_sub .., nullary_bufs_sub ..,
    binary_bufs_sub .., binary_bufs_sub .., nullary_bufs_sub .., binary_bufs_sub .., binary_bufs_sub .., binary_bufs_sub ..,
    binary_bufs_sub .., binary_bufs_sub .., nullary_bufs_sub .., binary_bufs_sub .., binary_bufs_sub .., binary_bufs_sub ..,
    nullary_bufs_sub .., binary_bufs_sub .., nullary_bufs_sub .., unary_bufs_sub .., binary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    binary_bufs_sub .., nullary_bufs_sub .., unary_bufs_sub .., binary_bufs_sub .., nullary_bufs_sub .., binary_bufs_sub ..,
    nullary_bufs_sub .., binary_bufs_sub ..⟩

/-- At the compiled mesh, for any float values, from any memory with zero counters: every weakly fair execution of
    the entry function on the TensorCores terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold read at the result and at the arguments

Each operation's result is its function of the contents of its operand buffers, and any other buffer keeps what it
held; every buffer of the line is written once. Read at the result buffer and rewritten operation by operation, the
fold is therefore one pure term over the two argument arrays, and that term is the reference's function stage by
stage: the two variances, the two means, the tail. The row reductions, the divisions and the logarithms stay closed
while the two terms are compared: the equation is between their arrangements, not their values. -/

attribute [local irreducible] Host.reduceAdd Host.divf Host.log in
set_option maxRecDepth 16384 in
set_option maxHeartbeats 4000000 in
/-- The result buffer ends at the reference's pure function of the two argument arrays. -/
theorem out_eq (V : Valuation τ sig (Elt F)) :
    after ops V (main_v51 : DevRef τ sig) = RefFn.outOf (V (main_arg0 : DevRef τ sig)) (V (main_arg1 : DevRef τ sig)) := by
  after_results_simp
  rfl

set_option maxRecDepth 16384 in
/-- No operation writes the first argument's buffer. -/
theorem arg0_eq (V : Valuation τ sig (Elt F)) : after ops V (main_arg0 : DevRef τ sig) = V (main_arg0 : DevRef τ sig) := by
  after_results_simp

set_option maxRecDepth 16384 in
/-- No operation writes the second argument's buffer. -/
theorem arg1_eq (V : Valuation τ sig (Elt F)) : after ops V (main_arg1 : DevRef τ sig) = V (main_arg1 : DevRef τ sig) := by
  after_results_simp

end Cert.ReferenceIdeal.RefRun

end
-- ==== Proof.RefStats.lean ====
/-
  The reference's row statistics read at one row.

  A sum over the last axis, read at batch `b` and row `r`, is the initial value 0 plus the sum over the 512 features of
  the summand at (b, r, k). The row mean is that sum over 512.0. The variance function first spreads the mean back
  over the row (through a column of width one), subtracts it, sums the squares of the differences over the row, and
  divides by 512.0 − 1; its guard "denominator > 0" holds because that denominator is the real 511, so the
  quotient branch is the one taken. Read at (b, r) these are exactly the specification's two-pass `meanR` and `varR`.
-/
import proofs.«424572_j75840532512889_3_alg».proof.Proof.RefFn
import proofs.«424572_j75840532512889_3_alg».proof.Proof.KLSpec
import Idealize.ShloMosaic.PureOps.Ideal.Laws
import Idealize.ShloMosaic.Lib.ValueIdx
import Idealize.ShloMosaic.Lib.Pipeline.Value

noncomputable section

open scoped BigOperators

namespace Cert.ReferenceIdeal.RefStats

open Idealize.ShloMosaic Idealize.ShloMosaic.ValueIdx Cert.ReferenceIdeal Cert.ReferenceIdeal.Gen

/-! ## A sum over the last axis at a row -/

/-- Dropping the last axis of a 32 × 4096 × 512 array leaves a 32 × 4096 one. -/
theorem reduces_last : S32x4096x512.Reduces [2] S32x4096 := by decide

/-- The index over row (b, r) with feature `k` inserted on the dropped axis is (b, r, k). -/
theorem lift_last (b : Fin 32) (r : Fin 4096) (k : Fin 512) :
    reduces_last.lift (ix2 b r) k = ix3 b r k := by
  funext c
  match c with
  | ⟨0, _⟩ => rfl
  | ⟨1, _⟩ => rfl
  | ⟨2, _⟩ => rfl

/-- A sum from 0.0 over the last axis, at row (b, r): the sum over the 512 features of the summand at (b, r, k). -/
theorem sumLast_apply (Y : FVec Ideal S32x4096x512 .f32) (b : Fin 32) (r : Fin 4096) :
    Host.reduceAdd Y (constant S_ .f32 0x00000000#32) reducesTo_S32x4096x512_S32x4096_d2 h_S_ (ix2 b r)
      = ∑ k : Fin 512, Y (ix3 b r k) := by
  show Ideal.hostReduceAdd reducesTo_S32x4096x512_S32x4096_d2 Y (Ideal.ofBits .f32 0x00000000#32) (ix2 b r) = _
  rw [Ideal.hostReduceAdd_single reducesTo_S32x4096x512_S32x4096_d2 reduces_last, Cert.KLSpec.word_zero, zero_add]
  exact Finset.sum_congr rfl fun k _ => congrArg Y (lift_last b r k)

/-! ## The row sums and the row mean -/

/-- The reference's row sum at (b, r) is the specification's. -/
theorem rowSums_apply (X : FVec Ideal S32x4096x512 .f32) (b : Fin 32) (r : Fin 4096) :
    RefFn.rowSums X (ix2 b r) = Cert.KLSpec.rowSum X b r :=
  sumLast_apply X b r

theorem meanOf_apply (X : FVec Ideal S32x4096x512 .f32) (b : Fin 32) (r : Fin 4096) :
    RefFn.meanOf X (ix2 b r) = Cert.KLSpec.meanR X b r := by
  show Ideal.div (RefFn.rowSums X (ix2 b r)) (Ideal.ofBits .f32 0x44000000#32) = _
  rw [rowSums_apply]
  rfl

/-! ## The centred array -/

/-- The mean column at (b, r, 0) is the row's mean: the row sums spread onto a last axis of width one, over 512.0. -/
theorem meanCol_apply (X : FVec Ideal S32x4096x512 .f32) (b : Fin 32) (r : Fin 4096) (z : Fin 1) :
    RefFn.meanCol X (ix3 b r z) = Cert.KLSpec.meanR X b r := by
  show Ideal.div (broadcastInDim S32x4096x1 ![0, 1] bcast_S32x4096_S32x4096x1_0_1 (RefFn.rowSums X) (ix3 b r z))
      (Ideal.ofBits .f32 0x44000000#32) = _
  rw [broadcastInDim_apply ![0, 1] bcast_S32x4096_S32x4096x1_0_1 (RefFn.rowSums X) (ix3 b r z) (ix2 b r)
    (by intro a; match a with | ⟨0, _⟩ => rfl | ⟨1, _⟩ => rfl), rowSums_apply]
  rfl

/-- The centred array at (b, r, k) is the entry minus its row's mean. -/
theorem centered_apply (X : FVec Ideal S32x4096x512 .f32) (b : Fin 32) (r : Fin 4096) (k : Fin 512) :
    RefFn.centered X (ix3 b r k) = X (ix3 b r k) - Cert.KLSpec.meanR X b r := by
  show X (ix3 b r k)
      - broadcastInDim S32x4096x512 ![0, 1, 2] bcast_S32x4096x1_S32x4096x512_0_1_2 (RefFn.meanCol X) (ix3 b r k) = _
  rw [broadcastInDim_apply ![0, 1, 2] bcast_S32x4096x1_S32x4096x512_0_1_2 (RefFn.meanCol X) (ix3 b r k)
    (ix3 b r (0 : Fin 1)) (by intro a; match a with | ⟨0, _⟩ => rfl | ⟨1, _⟩ => rfl | ⟨2, _⟩ => rfl), meanCol_apply]

/-! ## The variance -/

/-- The guard of the variance function: 512.0 − 1 is the real 511, which is above 0.0, so the comparison's bit is 1. -/
theorem guard_one :
    Ideal.cmp .ogt (Ideal.ofBits .f32 0x44000000#32 - (((1#32 : BitVec 32).toInt : ℝ) : EReal))
      (Ideal.ofBits .f32 0x00000000#32) = 1#1 := by
  rw [Cert.KLSpec.denom_511, Cert.KLSpec.word_zero]
  have h : (0 : EReal) < ((511 : ℝ) : EReal) := by exact_mod_cast (by norm_num : (0 : ℝ) < 511)
  show BitVec.ofBool (decide ((0 : EReal) < ((511 : ℝ) : EReal))) = 1#1
  rw [decide_eq_true h]
  rfl

theorem varOf_apply (X : FVec Ideal S32x4096x512 .f32) (b : Fin 32) (r : Fin 4096) :
    RefFn.varOf X (constantI S_ 32 1#32) (ix2 b r) = Cert.KLSpec.varR X b r := by
  show Scalar.select
      (Ideal.cmp .ogt (Ideal.ofBits .f32 0x44000000#32 - (((1#32 : BitVec 32).toInt : ℝ) : EReal))
        (Ideal.ofBits .f32 0x00000000#32))
      (Ideal.div
        (Host.reduceAdd (mulf (RefFn.centered X) (RefFn.centered X)) (constant S_ .f32 0x00000000#32)
          reducesTo_S32x4096x512_S32x4096_d2 h_S_ (ix2 b r))
        (Ideal.ofBits .f32 0x44000000#32 - (((1#32 : BitVec 32).toInt : ℝ) : EReal)))
      (Ideal.ofBits .f32 0x7FC00000#32) = _
  rw [guard_one, select_one, sumLast_apply]
  unfold Cert.KLSpec.varR
  congr 1
  exact Finset.sum_congr rfl fun k _ => by rw [mulf_apply, centered_apply]

end Cert.ReferenceIdeal.RefStats

end
-- ==== Proof.RefTail.lean ====
/-
  The reference's tail read as the specification's total.

  The tail takes the two variance arrays and the two mean arrays, each 32 batches × 4096 rows. It averages the means
  and the variances, forms the reciprocal of the averaged mean, and for each distribution adds three sums over the
  4096 rows of a batch — the log-ratios (less the row count), the traces, the quadratic forms —; it halves each side,
  adds the two, halves again, and takes the mean over the 32 batches.

  Read at the exact values every one of these steps is what it says on an element: a sum over the rows, or over the batches, from
  the zero word is the finite sum over that coordinate (0 + x = x), a product, difference or quotient of arrays is the
  product, difference or quotient of the entries, a constant spread over an array is its word everywhere. So at batch
  `b` the halved sum of the two sides is the specification's `batchR` of the four rows of statistics, and the result
  is `totalR`.
-/
import proofs.«424572_j75840532512889_3_alg».proof.Proof.RefFn
import proofs.«424572_j75840532512889_3_alg».proof.Proof.KLSpec
import Idealize.ShloMosaic.PureOps.Ideal.Laws
import Idealize.ShloMosaic.Lib.ValueIdx

noncomputable section

open scoped BigOperators

namespace Cert.ReferenceIdeal.RefTail

open Idealize.ShloMosaic Idealize.ShloMosaic.ValueIdx Cert.ReferenceIdeal Cert.ReferenceIdeal.Gen

/-! ## The two sums -/

/-- Summing out the row axis of a 32 × 4096 array leaves the 32 batches. -/
theorem reduces_rows : Shape.Reduces S32x4096 [1] S32 := by decide

/-- The batch index `b` with the row coordinate `r` put back is the index (b, r). -/
theorem lift_rows (b : Fin 32) (r : Fin 4096) : reduces_rows.lift (ix1 b) r = ix2 b r := by
  funext d
  match d with
  | ⟨0, _⟩ => rfl
  | ⟨1, _⟩ => rfl

/-- A 32-vector's indices are the 32 batch numbers. -/
def batchEquiv : (⟨1, ![32]⟩ : Shape).Idx ≃ Fin 32 where
  toFun i := i 0
  invFun b := ix1 b
  left_inv i := (eq_ix1 i).symm
  right_inv _ := rfl

/-- So a sum over a 32-vector's indices is the sum over the batch numbers. -/
theorem sum_batches (f : S32.Idx → EReal) : ∑ i, f i = ∑ b : Fin 32, f (ix1 b) :=
  (Equiv.sum_comp batchEquiv.symm f).symm

/-- The sum over the rows, at batch `b`: the finite sum of the batch's 4096 entries. -/
theorem sumRows_apply (Y : FVec Ideal S32x4096 .f32) (b : Fin 32) :
    RefFn.sumRows Y (ix1 b) = ∑ r : Fin 4096, Y (ix2 b r) := by
  unfold RefFn.sumRows Host.reduceAdd
  rw [Ideal.hostReduceAdd_def, Ideal.hostReduceAdd_single _ reduces_rows]
  show Ideal.ofBits .f32 0x00000000#32 + _ = _
  rw [Cert.KLSpec.word_zero, zero_add]
  exact Finset.sum_congr rfl fun r _ => congrArg Y (lift_rows b r)

/-! ## The entrywise stages -/

/-- The averaged array at an index is the average of the two entries. -/
theorem avgOf_apply (A B : FVec Ideal S32x4096 .f32) (i : S32x4096.Idx) :
    RefFn.avgOf A B i = Cert.KLSpec.avg (A i) (B i) := rfl

/-- The reciprocal array at an index is the reciprocal of the entry. -/
theorem recipOf_apply (GA : FVec Ideal S32x4096 .f32) (i : S32x4096.Idx) :
    RefFn.recipOf GA i = Cert.KLSpec.recip (GA i) := rfl

/-- One distribution's side at batch `b`: the three row sums of the specification's terms, the first less 4096.0. -/
theorem sideOf_apply (GA G UA U : FVec Ideal S32x4096 .f32) (b : Fin 32) :
    RefFn.sideOf GA G UA U (ix1 b)
      = (((∑ r : Fin 4096, Cert.KLSpec.logRatio (GA (ix2 b r)) (G (ix2 b r))) - Ideal.ofBits .f32 0x45800000#32)
          + ∑ r : Fin 4096, Cert.KLSpec.trTerm (GA (ix2 b r)) (G (ix2 b r)))
        + ∑ r : Fin 4096, Cert.KLSpec.quadTerm (UA (ix2 b r)) (U (ix2 b r)) (GA (ix2 b r)) := by
  show ((RefFn.sumRows _ (ix1 b) - _) + RefFn.sumRows _ (ix1 b)) + RefFn.sumRows _ (ix1 b) = _
  rw [sumRows_apply, sumRows_apply, sumRows_apply]
  rfl

/-! ## A batch, and the total -/

/-- The vector the last sum runs over, at batch `b`: the specification's batch value of that batch's four rows of
    statistics. -/
theorem batch_apply (U1 U2 G1 G2 : FVec Ideal S32x4096 .f32) (b : Fin 32) :
    mulf RefFn.halfVec
        (addf (mulf RefFn.halfVec (RefFn.sideOf (RefFn.avgOf G1 G2) G1 (RefFn.avgOf U1 U2) U1))
          (mulf RefFn.halfVec (RefFn.sideOf (RefFn.avgOf G1 G2) G2 (RefFn.avgOf U1 U2) U2))) (ix1 b)
      = Cert.KLSpec.batchR (fun r => G1 (ix2 b r)) (fun r => G2 (ix2 b r)) (fun r => U1 (ix2 b r))
          (fun r => U2 (ix2 b r)) := by
  show Ideal.ofBits .f32 0x3F000000#32 *
      (Ideal.ofBits .f32 0x3F000000#32 * RefFn.sideOf _ _ _ _ (ix1 b)
        + Ideal.ofBits .f32 0x3F000000#32 * RefFn.sideOf _ _ _ _ (ix1 b)) = _
  rw [sideOf_apply, sideOf_apply]
  rfl

/-- THE TAIL IS THE SPECIFICATION'S TOTAL of the four arrays of row statistics. -/
theorem resultOf_eq (U1 U2 G1 G2 : FVec Ideal S32x4096 .f32) :
    RefFn.resultOf U1 U2 G1 G2
      = fun _ => Cert.KLSpec.totalR (fun b r => G1 (ix2 b r)) (fun b r => G2 (ix2 b r)) (fun b r => U1 (ix2 b r)) (fun b r => U2 (ix2 b r)) := by
  funext j
  unfold RefFn.resultOf Host.divf Host.reduceAdd
  rw [Ideal.hostDivf_def, Ideal.hostReduceAdd_def, Ideal.hostReduceAdd_total _ (fun a => a.elim0)]
  show Ideal.div (Ideal.ofBits .f32 0x00000000#32 + _) (Ideal.ofBits .f32 0x42000000#32) = _
  rw [Cert.KLSpec.word_zero, zero_add, sum_batches]
  unfold Cert.KLSpec.totalR
  refine congrArg (fun t => Ideal.div t (Ideal.ofBits .f32 0x42000000#32)) ?_
  exact Finset.sum_congr rfl fun b _ => batch_apply U1 U2 G1 G2 b

end Cert.ReferenceIdeal.RefTail

end
-- ==== Proof.RefValue.lean ====
/-
  The reference's run, with its result named.

  The reference is a straight line of host operations, so its run ends with every buffer at the fold of the operations
  over the launch contents. Read at the result buffer that fold is the reference's function of its two argument arrays;
  its row statistics read at a batch and a row are the specification's two-pass mean and variance, and its tail is the
  specification's reference total. So the result is that total at the two-pass statistics of the launch's two argument
  arrays, and the arguments, which no operation writes, end as they began.
-/
import proofs.«424572_j75840532512889_3_alg».proof.Proof.RefOps
import proofs.«424572_j75840532512889_3_alg».proof.Proof.RefStats
import proofs.«424572_j75840532512889_3_alg».proof.Proof.RefTail

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The reference's function of its two arguments is the specification's reference total at their two-pass
    row statistics. -/
theorem outOf_eq (X1 X2 : FVec Ideal S32x4096x512 .f32) :
    RefFn.outOf X1 X2
      = fun _ => Cert.KLSpec.totalR (Cert.KLSpec.meanR X1) (Cert.KLSpec.meanR X2)
          (Cert.KLSpec.varR X1) (Cert.KLSpec.varR X2) := by
  have eG1 : (fun b r => RefFn.meanOf X1 (ix2 b r)) = Cert.KLSpec.meanR X1 := by
    funext b r; exact RefStats.meanOf_apply X1 b r
  have eG2 : (fun b r => RefFn.meanOf X2 (ix2 b r)) = Cert.KLSpec.meanR X2 := by
    funext b r; exact RefStats.meanOf_apply X2 b r
  have eU1 : (fun b r => RefFn.varOf X1 (constantI S_ 32 1#32) (ix2 b r)) = Cert.KLSpec.varR X1 := by
    funext b r; exact RefStats.varOf_apply X1 b r
  have eU2 : (fun b r => RefFn.varOf X2 (constantI S_ 32 1#32) (ix2 b r)) = Cert.KLSpec.varR X2 := by
    funext b r; exact RefStats.varOf_apply X2 b r
  unfold RefFn.outOf
  rw [RefTail.resultOf_eq, eG1, eG2, eU1, eU2]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
          = (fun _ => Cert.KLSpec.totalR (Cert.KLSpec.meanR (m ((c.tc : Thread nD τ).loc main_arg0))) (Cert.KLSpec.meanR (m ((c.tc : Thread nD τ).loc main_arg1)))
                        (Cert.KLSpec.varR (m ((c.tc : Thread nD τ).loc main_arg0))) (Cert.KLSpec.varR (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c =>
      ⟨((h c main_v51).trans (RefRun.out_eq (F := Ideal) _)).trans
          (outOf_eq (m ((c.tc : Thread nD τ).loc main_arg0)) (m ((c.tc : Thread nD τ).loc main_arg1))),
        (h c main_arg0).trans (RefRun.arg0_eq (F := Ideal) _),
        (h c main_arg1).trans (RefRun.arg1_eq (F := Ideal) _)⟩)
    (RefRun.run_main (F := Ideal) m ρ)

end Cert.ReferenceIdeal.RefValue

end
-- ==== Proof.KLAlgebra.lean ====
/-
  Extended-real algebra behind the equivalence, with no program in sight.

  Three facts. (i) Dividing a row's sum by 512.0 is multiplying it by 1/512, so the two means agree for every
  extended-real input. (ii) When every entry of the array is a real number, the one-pass variance
  (Σx² − (Σx)²/512)/511 and the two-pass variance Σ(x − mean)²/511 are the coercion of one and the same real.
  (iii) With arbitrary extended-real means (their logarithms and reciprocals may be infinite) and real variances, adding
  the folded per-row number over two tiles of 2048 rows gives what the reference gets by summing each of the six terms
  over the 4096 rows, taking off the row count and halving twice. Only laws that hold on the extended reals are used:
  addition is commutative and associative, multiplication is commutative and associative, a difference is a sum with the
  negative, and a nonnegative REAL factor distributes over sums.
-/
import proofs.«424572_j75840532512889_3_alg».proof.Proof.KLSpec
import Mathlib.Algebra.BigOperators.Fin
import Mathlib.Tactic.Ring
import Mathlib.Tactic.Abel
import Mathlib.Tactic.NormNum

noncomputable section

open scoped BigOperators

namespace Cert.KLSpec

open Idealize.ShloMosaic Idealize.ShloMosaic.ValueIdx

section Algebra

/-! ## Coercion and nonnegative real factors through finite sums -/

/-- The inclusion of the reals in the extended reals, as an additive map. -/
def coeHom : ℝ →+ EReal := ⟨⟨Real.toEReal, EReal.coe_zero⟩, EReal.coe_add⟩

/-- The coercion of a finite sum of reals is the sum of the coercions. -/
theorem coe_sum {ι : Type} (s : Finset ι) (f : ι → ℝ) :
    ((∑ i ∈ s, f i : ℝ) : EReal) = ∑ i ∈ s, (f i : EReal) := map_sum coeHom f s

/-- A nonnegative real factor distributes over a sum of two arbitrary extended reals. -/
theorem scale_add (a : ℝ) (ha : 0 ≤ a) (y z : EReal) : (a : EReal) * (y + z) = (a : EReal) * y + (a : EReal) * z :=
  EReal.left_distrib_of_nonneg_of_ne_top (by exact_mod_cast ha) (EReal.coe_ne_top a) y z

/-- Multiplication by a nonnegative real, as an additive map of the extended reals. -/
def scaleHom (a : ℝ) (ha : 0 ≤ a) : EReal →+ EReal where
  toFun x := (a : EReal) * x
  map_zero' := mul_zero _
  map_add' y z := scale_add a ha y z

/-- A nonnegative real factor distributes over a finite sum of arbitrary extended reals. -/
theorem scale_sum {ι : Type} (a : ℝ) (ha : 0 ≤ a) (s : Finset ι) (f : ι → EReal) :
    (a : EReal) * ∑ i ∈ s, f i = ∑ i ∈ s, (a : EReal) * f i := map_sum (scaleHom a ha) f s

/-! ## (i) The two means -/

theorem meanR_eq_meanK (X : Arr) (b : Fin 32) (r : Fin 4096) : meanR X b r = meanK X b r := by
  unfold meanR meanK
  rw [word_512, Ideal.div_coe (by norm_num)]

/-! ## (ii) The two variances on real entries -/

/-- Over 512 reals with sum s: Σ(x − s/512)² = Σx² − s²/512. -/
theorem real_var_identity (y : Fin 512 → ℝ) :
    ∑ k, (y k - (∑ j, y j) * (1 / 512)) * (y k - (∑ j, y j) * (1 / 512))
      = (∑ k, y k * y k) - (∑ k, y k) * (∑ k, y k) * (1 / 512) := by
  generalize hs : ∑ j, y j = s
  have h : ∀ k, (y k - s * (1 / 512)) * (y k - s * (1 / 512))
      = y k * y k - (2 * (s * (1 / 512))) * y k + (s * (1 / 512)) * (s * (1 / 512)) := by
    intro k; ring
  simp only [h, Finset.sum_add_distrib, Finset.sum_sub_distrib, ← Finset.mul_sum, Finset.sum_const,
    Finset.card_univ, Fintype.card_fin, nsmul_eq_mul, hs]
  push_cast; ring

theorem var_real (X : Arr) (hX : ∀ i, ∃ x : ℝ, X i = (x : EReal)) (b : Fin 32) (r : Fin 4096) :
    ∃ v : ℝ, varK X b r = (v : EReal) ∧ varR X b r = (v : EReal) := by
  choose x hx using hX
  -- the row as 512 reals, its sum and its sum of squares
  have hs : rowSum X b r = ((∑ k, x (ix3 b r k) : ℝ) : EReal) := by
    unfold rowSum; rw [coe_sum]; exact Finset.sum_congr rfl (fun k _ => hx _)
  have hq : rowSqSum X b r = ((∑ k, x (ix3 b r k) * x (ix3 b r k) : ℝ) : EReal) := by
    unfold rowSqSum; rw [coe_sum]
    refine Finset.sum_congr rfl (fun k _ => ?_); rw [hx, ← EReal.coe_mul]
  have hm : meanR X b r = (((∑ k, x (ix3 b r k)) * (1 / 512) : ℝ) : EReal) := by
    rw [meanR_eq_meanK, meanK, hs, ← EReal.coe_mul]
  refine ⟨((∑ k, x (ix3 b r k) * x (ix3 b r k))
      - (∑ k, x (ix3 b r k)) * (∑ k, x (ix3 b r k)) * (1 / 512)) * (1 / 511), ?_, ?_⟩
  · unfold varK
    rw [hs, hq, ← EReal.coe_mul, ← EReal.coe_mul, ← EReal.coe_sub, ← EReal.coe_mul]
  · unfold varR
    rw [denom_511, Ideal.div_coe (by norm_num), hm]
    have hd : ∑ k : Fin 512, (X (ix3 b r k) - (((∑ k, x (ix3 b r k)) * (1 / 512) : ℝ) : EReal))
          * (X (ix3 b r k) - (((∑ k, x (ix3 b r k)) * (1 / 512) : ℝ) : EReal))
        = ((∑ k : Fin 512, (x (ix3 b r k) - (∑ k, x (ix3 b r k)) * (1 / 512))
            * (x (ix3 b r k) - (∑ k, x (ix3 b r k)) * (1 / 512)) : ℝ) : EReal) := by
      rw [coe_sum]
      refine Finset.sum_congr rfl (fun k _ => ?_); rw [hx, ← EReal.coe_sub, ← EReal.coe_mul]
    rw [hd, real_var_identity (fun k => x (ix3 b r k)), ← EReal.coe_mul]

/-! ## (iii) The two totals -/

/-- A sum over the 4096 rows of a batch is the sum over its first tile plus the sum over its second. -/
theorem sum_tiles (f : Fin 4096 → EReal) :
    ∑ r : Fin 4096, f r = (∑ j : Fin 2048, f (loRow j)) + ∑ j : Fin 2048, f (hiRow j) :=
  Fin.sum_univ_add (a := 2048) (b := 2048) f

/-- With real variances the two quadratic forms of a row agree: ū − u₁ = −(ū − u₂) for ū their average. -/
theorem quadTerm_symm (u1 u2 : ℝ) (ga : EReal) :
    quadTerm (avg (u1 : EReal) (u2 : EReal)) (u2 : EReal) ga
      = quadTerm (avg (u1 : EReal) (u2 : EReal)) (u1 : EReal) ga := by
  unfold quadTerm avg
  rw [word_half, ← EReal.coe_add, ← EReal.coe_mul, ← EReal.coe_sub, ← EReal.coe_sub, ← EReal.coe_mul,
    ← EReal.coe_mul]
  have h : ((u1 + u2) * (1 / 2) - u2) * ((u1 + u2) * (1 / 2) - u2)
      = ((u1 + u2) * (1 / 2) - u1) * ((u1 + u2) * (1 / 2) - u1) := by ring
  rw [h]

/-- One row of the kernel with every coefficient 1/4: the six terms and the constant −2·(1/4). -/
theorem rowK_eq (g1 g2 : EReal) (u1 u2 : ℝ) :
    rowK g1 g2 (u1 : EReal) (u2 : EReal)
      = ((((1 / 4 : ℝ) : EReal) * logRatio (avg g1 g2) g1 + ((1 / 4 : ℝ) : EReal) * logRatio (avg g1 g2) g2)
          + ((((1 / 4 : ℝ) : EReal) * trTerm (avg g1 g2) g1 + ((1 / 4 : ℝ) : EReal) * trTerm (avg g1 g2) g2)
              + (((-(1 / 2) : ℝ)) : EReal)))
        + (((1 / 4 : ℝ) : EReal) * quadTerm (avg (u1 : EReal) (u2 : EReal)) (u1 : EReal) (avg g1 g2)
            + ((1 / 4 : ℝ) : EReal) * quadTerm (avg (u1 : EReal) (u2 : EReal)) (u2 : EReal) (avg g1 g2)) := by
  have h4 : (0 : ℝ) ≤ 1 / 4 := by norm_num
  have hh : Ideal.ofBits .f32 0x3F000000#32 = ((1 / 4 : ℝ) : EReal) + ((1 / 4 : ℝ) : EReal) := by
    rw [word_half, ← EReal.coe_add]; norm_num
  have hc : ((1 / 4 : ℝ) : EReal) * (-((2 : ℝ) : EReal)) = (((-(1 / 2) : ℝ)) : EReal) := by
    rw [← EReal.coe_neg, ← EReal.coe_mul]; norm_num
  unfold rowK
  rw [quadTerm_symm u1 u2, word_quarter, word_two, sub_eq_add_neg, scale_add _ h4, scale_add _ h4, scale_add _ h4, hc,
    hh, EReal.right_distrib_of_nonneg (by exact_mod_cast h4) (by exact_mod_cast h4)]

/-- Rearranging seven-plus-seven summands in a commutative monoid. -/
theorem shuffle {M : Type} [AddCommMonoid M] (a1 a2 t1 t2 q1 q2 k : M) :
    ((a1 + a2) + ((t1 + t2) + (k + k))) + (q1 + q2)
      = (((a1 + k) + t1) + q1) + (((a2 + k) + t2) + q2) := by abel

/-- One batch: the folded rows added up are the reference's batch value. -/
theorem batch_eq (g1 g2 : Fin 4096 → EReal) (u1 u2 : Fin 4096 → ℝ) :
    ∑ r : Fin 4096, rowK (g1 r) (g2 r) ((u1 r : ℝ) : EReal) ((u2 r : ℝ) : EReal)
      = batchR g1 g2 (fun r => ((u1 r : ℝ) : EReal)) (fun r => ((u2 r : ℝ) : EReal)) := by
  have h4 : (0 : ℝ) ≤ 1 / 4 := by norm_num
  have h2 : (0 : ℝ) ≤ 1 / 2 := by norm_num
  have hhh : ((1 / 2 : ℝ) : EReal) * ((1 / 2 : ℝ) : EReal) = ((1 / 4 : ℝ) : EReal) := by
    rw [← EReal.coe_mul]; norm_num
  have hk : ((1 / 4 : ℝ) : EReal) * (-((4096 : ℝ) : EReal)) = (((-1024 : ℝ)) : EReal) := by
    rw [← EReal.coe_neg, ← EReal.coe_mul]; norm_num
  have hconst : ∑ _r : Fin 4096, (((-(1 / 2) : ℝ)) : EReal) = (((-1024 : ℝ)) : EReal) + (((-1024 : ℝ)) : EReal) := by
    rw [← coe_sum, ← EReal.coe_add, Finset.sum_const, Finset.card_univ, Fintype.card_fin, nsmul_eq_mul]; norm_num
  -- the kernel's side: each row in its seven summands, the sum taken summand by summand
  simp only [rowK_eq, Finset.sum_add_distrib, hconst]
  -- the reference's side: 0.5·(0.5·A₁ + 0.5·A₂) = (1/4)·A₁ + (1/4)·A₂, the factor taken inside each A
  unfold batchR
  rw [word_half, word_4096, scale_add _ h2, ← mul_assoc, ← mul_assoc, hhh]
  simp only [sub_eq_add_neg, scale_add _ h4, scale_sum _ h4, hk]
  exact shuffle _ _ _ _ _ _ _

theorem totalK_eq_totalR (g1 g2 : Fin 32 → Fin 4096 → EReal) (u1 u2 : Fin 32 → Fin 4096 → ℝ) :
    totalK g1 g2 (fun b r => ((u1 b r : ℝ) : EReal)) (fun b r => ((u2 b r : ℝ) : EReal))
      = totalR g1 g2 (fun b r => ((u1 b r : ℝ) : EReal)) (fun b r => ((u2 b r : ℝ) : EReal)) := by
  unfold totalK totalR
  congr 1
  refine Finset.sum_congr rfl (fun b _ => ?_)
  exact (sum_tiles (fun r => rowK (g1 b r) (g2 b r) ((u1 b r : ℝ) : EReal) ((u2 b r : ℝ) : EReal))).symm.trans
    (batch_eq (g1 b) (g2 b) (u1 b) (u2 b))

end Algebra

end Cert.KLSpec

end
-- ==== Proof.KLBridge.lean ====
/-
  The two totals meet on real inputs.

  The reference's total is taken at its own row statistics (the two-pass mean and variance), the kernel's at the one-pass
  ones. The means agree for every input. When every entry of both arrays is a real number, each row's two variances are
  the coercion of one real, so both totals are read at the same means and at the same REAL variances, where the algebra
  of the two totals applies.
-/
import proofs.«424572_j75840532512889_3_alg».proof.Proof.KLAlgebra

noncomputable section

namespace Cert.KLSpec

theorem bridge (X1 X2 : Arr) (h1 : ∀ i, ∃ x : ℝ, X1 i = (x : EReal)) (h2 : ∀ i, ∃ x : ℝ, X2 i = (x : EReal)) :
    totalR (meanR X1) (meanR X2) (varR X1) (varR X2) = totalK (meanK X1) (meanK X2) (varK X1) (varK X2) := by
  -- the means, as functions of the batch and the row
  have hm1 : meanR X1 = meanK X1 := by funext b r; exact meanR_eq_meanK X1 b r
  have hm2 : meanR X2 = meanK X2 := by funext b r; exact meanR_eq_meanK X2 b r
  -- one real per row for each array, the value of both of its variances
  choose v1 hK1 hR1 using var_real X1 h1
  choose v2 hK2 hR2 using var_real X2 h2
  have eK1 : varK X1 = fun b r => ((v1 b r : ℝ) : EReal) := by funext b r; exact hK1 b r
  have eK2 : varK X2 = fun b r => ((v2 b r : ℝ) : EReal) := by funext b r; exact hK2 b r
  have eR1 : varR X1 = fun b r => ((v1 b r : ℝ) : EReal) := by funext b r; exact hR1 b r
  have eR2 : varR X2 = fun b r => ((v2 b r : ℝ) : EReal) := by funext b r; exact hR2 b r
  rw [hm1, hm2, eK1, eK2, eR1, eR2]
  exact (totalK_eq_totalR (meanK X1) (meanK X2) v1 v2).symm

end Cert.KLSpec

end
-- ==== Proof.Finite.lean ====
/-
  Finiteness of the two argument arrays, out of the printed precondition.

  The precondition is one bit: the conjunction of "every |x0| is below +∞" and "every |x1| is below +∞". Each half is
  the fold by `and`, from the bit 1, of the elementwise comparisons |x| < +∞ over the whole array. When the bit is 1 both
  halves are 1, and a fold by `and` that is 1 met only 1s, so every comparison holds. The word 0x7F800000 is +∞, and
  |x| = max x (−x) is +∞ at either infinity; so an entry whose comparison holds is neither infinity: it is a real.
-/
import proofs.«424572_j75840532512889_3_alg».proof.Proof.Gen.Pre_finite_inputs
import Idealize.ShloMosaic.Lib.ReduceAll
import Idealize.ShloMosaic.Lib.ValueIdx

namespace Cert.Pre_finite_inputs.Finite

open Idealize.ShloMosaic Idealize.ShloMosaic.ValueIdx Cert.Pre_finite_inputs

/-- The scalar shape has one index. -/
instance : Subsingleton S_.Idx := ⟨fun _ _ => funext fun d => d.elim0⟩

/-- The word 0x7F800000 is +∞. -/
theorem word_inf : Ideal.ofBits .f32 0x7F800000#32 = ⊤ := by simp [Ideal.ofBits, Ideal.ieee]

/-- An extended real whose absolute value compares below +∞ is a real: at −∞ and at +∞ the absolute value is +∞. -/
theorem real_of_abs_lt (x : EReal)
    (h : Ideal.cmp .olt (max x (-x)) (Ideal.ofBits .f32 0x7F800000#32) = 1#1) : ∃ r : ℝ, x = (r : EReal) := by
  rw [word_inf] at h
  induction x using EReal.rec with
  | bot => exact absurd h (by simp [Ideal.cmp])
  | coe r => exact ⟨r, rfl⟩
  | top => exact absurd h (by simp [Ideal.cmp])

/-- One half of the precondition: if the fold by `and` of the comparisons |x| < +∞ over an array is 1, every entry of
    the array is a real. -/
theorem all_real (x : FVec Ideal S32x4096x512 .f32)
    (hb : S_.BroadcastsInDim S32x4096x512 (![] : Fin 0 → Fin S32x4096x512.rank))
    (hr : S32x4096x512.ReducesTo [0, 1, 2] S_) (hu : 0 < S_.numel)
    (e : Host.reduce IntOp.andi
        (cmpf .olt (Host.absf x) (broadcastInDim S32x4096x512 ![] hb (constant S_ .f32 0x7F800000#32)))
        (constantI S_ 1 1#1) hr hu ix0 = 1#1)
    (i : S32x4096x512.Idx) : ∃ r : ℝ, x i = (r : EReal) :=
  real_of_abs_lt (x i) (Host.reduce_andi_all _ _ hr hu ix0 e i)

theorem real_of_pre (x0 x1 : FVec Ideal S32x4096x512 .f32)
    (h : Cert.Pre_finite_inputs.fn (F := Ideal) x0 x1 = fun _ => 1#1) :
    (∀ i, ∃ x : ℝ, x0 i = (x : EReal)) ∧ (∀ i, ∃ x : ℝ, x1 i = (x : EReal)) := by
  have h0 := congrFun h ix0
  dsimp only [fn] at h0
  obtain ⟨ha, hb⟩ := IntOp.andi_eq_one.1 h0
  exact ⟨fun i => all_real x0 _ _ _ ha i, fun i => all_real x1 _ _ _ hb i⟩

end Cert.Pre_finite_inputs.Finite
-- ==== Proof.lean ====
/-
  The certificate's claim: a diagonal-Gaussian divergence between two arrays of 32 × 4096 rows of 512 features, computed
  by a kernel in one pass over each row and by a reference in two.

  Both programs reduce every row to its mean and its unbiased variance and then add up, over rows and batches, the
  log-ratio, trace and quadratic-form terms of the divergence. At the ideal values the kernel's result is the folded
  total at the one-pass statistics (sum and sum of squares, with 1/512 and 1/511 exact), the reference's the term-by-term
  total at the two-pass statistics. The precondition makes every entry of both arrays a real number. Then the two means
  of a row agree (dividing by 512.0 is multiplying by 1/512), its two variances are one real
  (Σ(x − s/512)² = Σx² − s²/512 over 512 terms), and with real variances the two totals agree using only laws valid on
  the extended reals: sums commute and associate, a nonnegative real factor distributes over sums, and the two quadratic
  forms of a row coincide because (ū − u₁)² = (ū − u₂)² at ū the average. The means' logarithms and reciprocals may be
  infinite; nothing is assumed of them.

  The frames of the kernel and of its idealization are the generated ones; the reference's frame is its run with the
  result forgotten; the idealization's ledger has six entries, two named constants, each the value the table gives.
-/
import proofs.«424572_j75840532512889_3_alg».proof.Defs
import proofs.«424572_j75840532512889_3_alg».proof.Proof.Gen.Kernel
import proofs.«424572_j75840532512889_3_alg».proof.Proof.Gen.Kernel.Skeleton
import proofs.«424572_j75840532512889_3_alg».proof.Proof.Gen.Kernel.Launch
import proofs.«424572_j75840532512889_3_alg».proof.Proof.Gen.Kernel.Points
import proofs.«424572_j75840532512889_3_alg».proof.Proof.Gen.Kernel.Frame
import proofs.«424572_j75840532512889_3_alg».proof.Proof.Gen.KernelIdeal
import proofs.«424572_j75840532512889_3_alg».proof.Proof.Gen.KernelIdeal.Skeleton
import proofs.«424572_j75840532512889_3_alg».proof.Proof.Gen.KernelIdeal.Launch
import proofs.«424572_j75840532512889_3_alg».proof.Proof.Gen.KernelIdeal.Points
import proofs.«424572_j75840532512889_3_alg».proof.Proof.Gen.KernelIdeal.Frame
import proofs.«424572_j75840532512889_3_alg».proof.Proof.Gen.ReferenceIdeal
import proofs.«424572_j75840532512889_3_alg».proof.Proof.Gen.Pre_finite_inputs
import Idealize.ShloMosaic.Adequacy
import Idealize.ShloMosaic.Init
import proofs.«424572_j75840532512889_3_alg».proof.Proof.KValue
import proofs.«424572_j75840532512889_3_alg».proof.Proof.RefValue
import proofs.«424572_j75840532512889_3_alg».proof.Proof.KLBridge
import proofs.«424572_j75840532512889_3_alg».proof.Proof.Finite

noncomputable section

namespace Cert.Proof

open Idealize.ShloMosaic Idealize.SL.Sem Cert.Kernel

/-! ## The frames -/

theorem frame_k : Cert.frame_Kernel := fun m ρ _ => Cert.Kernel.Gen.frame m ρ

theorem frame_ki : Cert.frame_KernelIdeal := fun m ρ _ => Cert.KernelIdeal.Gen.frame m ρ

/-- The reference's run names its result too; the frame keeps the two arguments. -/
theorem frame_ri : Cert.frame_ReferenceIdeal := fun m ρ _ =>
  (θ_run Cert.ReferenceIdeal.defs _ _).mono (fun _ h c => (h c).2) (Cert.ReferenceIdeal.RefValue.run m ρ)

/-! ## The idealization's ledger -/

/-- The six entries name two constants: the table gives 1/512 and 1/511, and each printed constant is that value. -/
theorem preserves : Cert.preserves_Kernel_KernelIdeal :=
  ⟨IdealRules.named_const.statement Cert.KernelIdeal.κ "a_exact_inv_512" .f32 0x3B000000#32 ((1 / 512 : ℝ) : EReal) rfl,
   IdealRules.named_const.statement Cert.KernelIdeal.κ "a_exact_inv_512" .f32 0x3B000000#32 ((1 / 512 : ℝ) : EReal) rfl,
   IdealRules.named_const.statement Cert.KernelIdeal.κ "a_exact_inv_512" .f32 0x3B000000#32 ((1 / 512 : ℝ) : EReal) rfl,
   IdealRules.named_const.statement Cert.KernelIdeal.κ "inv_511" .f32 0x3B004020#32 ((1 / 511 : ℝ) : EReal) rfl,
   IdealRules.named_const.statement Cert.KernelIdeal.κ "a_exact_inv_512" .f32 0x3B000000#32 ((1 / 512 : ℝ) : EReal) rfl,
   IdealRules.named_const.statement Cert.KernelIdeal.κ "inv_511" .f32 0x3B004020#32 ((1 / 511 : ℝ) : EReal) rfl⟩

/-! ## The value claim -/

/-- The shared value is the kernel's total at the one-pass statistics of the kernel's arguments. The reference ends at
    its total at the two-pass statistics of its own arguments, which are the kernel's; the precondition makes both
    arrays real, and on real arrays the two totals are equal. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  have hreal := Cert.Pre_finite_inputs.Finite.real_of_pre _ _ (hpre c)
  exact funext fun _ => Cert.KLSpec.bridge _ _ hreal.1 hreal.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
